-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "recip_combine_norm" .f32 0x3FB504F3#32 ((16777216 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩
abbrev S1024x1024 : Shape := ⟨2, ![1024, 1024]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  reducesTo_S_S_d : S_.ReducesTo [] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v12 : IVec S_ 1) (main_v15 : IVec S1024x1024 1) (main_c_5 : IVec S_ 1) : IVec S_ 1 :=
  let main_v16 : IVec S_ 1 := (fun x v => Host.reduce IntOp.andi x v reducesTo_S1024x1024_S_d0_1 h_S_) main_v15 main_c_5
  let main_v17 : IVec S_ 1 := andi main_v12 main_v16
  let main_v18 : FVec F S1024x1024 .f32 := Host.absf main_arg4
  let main_cst_6 : FVec F S_ .f32 := constant S_ .f32 0x7F800000#32
  let main_v19 : FVec F S1024x1024 .f32 := broadcastInDim S1024x1024 ![] bcast_S_S1024x1024 main_cst_6
  let main_v20 : IVec S1024x1024 1 := cmpf .olt main_v18 main_v19
  let main_c_7 : IVec S_ 1 := constantI S_ 1 1#1
  let main_v21 : IVec S_ 1 := (fun x v => Host.reduce IntOp.andi x v reducesTo_S1024x1024_S_d0_1 h_S_) main_v20 main_c_7
  let main_v22 : IVec S_ 1 := andi main_v17 main_v21
  let main_v23 : FVec F S1024x1024 .f32 := Host.absf main_arg5
  let main_cst_8 : FVec F S_ .f32 := constant S_ .f32 0x7F800000#32
  let main_v24 : FVec F S1024x1024 .f32 := broadcastInDim S1024x1024 ![] bcast_S_S1024x1024 main_cst_8
  let main_v25 : IVec S1024x1024 1 := cmpf .olt main_v23 main_v24
  let main_c_9 : IVec S_ 1 := constantI S_ 1 1#1
  let main_v26 : IVec S_ 1 := (fun x v => Host.reduce IntOp.andi x v reducesTo_S1024x1024_S_d0_1 h_S_) main_v25 main_c_9
  let main_v27 : IVec S_ 1 := andi main_v22 main_v26
  main_v27

def fn {F : FTy → Type} [FloatOps F] (main_arg0 : FVec F S4x4096x1024 .f32) (main_arg1 : FVec F S_ .f32) (main_arg2 : FVec F S1024x1024 .f32) (main_arg3 : FVec F S1024x1024 .f32) (main_arg4 : FVec F S1024x1024 .f32) (main_arg5 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v7 main_v11
  let main_v13 : FVec F S1024x1024 .f32 := Host.absf main_arg3
  let main_cst_4 : FVec F S_ .f32 := constant S_ .f32 0x7F800000#32
  let main_v14 : FVec F S1024x1024 .f32 := broadcastInDim S1024x1024 ![] bcast_S_S1024x1024 main_cst_4
  let main_v15 : IVec S1024x1024 1 := cmpf .olt main_v13 main_v14
  let main_c_5 : IVec S_ 1 := constantI S_ 1 1#1
  fn_part1 (F := F) main_arg4 main_arg5 main_v12 main_v15 main_c_5
-- ==== Kernel.lean ====
abbrev S4x4096x1024 : Shape := ⟨3, ![4, 4096, 1024]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S16384x1024 : Shape := ⟨2, ![16384, 1024]⟩
abbrev S512x1024 : Shape := ⟨2, ![512, 1024]⟩
abbrev S4x4096x16x64 : Shape := ⟨4, ![4, 4096, 16, 64]⟩
abbrev S4x16x4096x64 : Shape := ⟨4, ![4, 16, 4096, 64]⟩
abbrev S1x1x4096x64 : Shape := ⟨4, ![1, 1, 4096, 64]⟩
abbrev S4096x64 : Shape := ⟨2, ![4096, 64]⟩
abbrev S4096 : Shape := ⟨1, ![4096]⟩
abbrev S4096x1 : Shape := ⟨2, ![4096, 1]⟩
abbrev S64x64 : Shape := ⟨2, ![64, 64]⟩
abbrev S64 : Shape := ⟨1, ![64]⟩
abbrev S64x1 : Shape := ⟨2, ![64, 1]⟩

abbrev nBuf : Space → Nat
  | .hbm => 93
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S_, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x1, .f32⟩
  | .hbm, ⟨45, _⟩ => ⟨S_, .f32⟩
  | .hbm, ⟨46, _⟩ => ⟨S1024x1, .f32⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1024x1, .f32⟩
  | .hbm, ⟨62, _⟩ => ⟨S_, .f32⟩
  | .hbm, ⟨63, _⟩ => ⟨S1024x1, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S1024x1024, .bf16⟩
  | .hbm, ⟨75, _⟩ => ⟨S1024x1024, .bf16⟩
  | .hbm, ⟨76, _⟩ => ⟨S1024x1024, .bf16⟩
  | .hbm, ⟨77, _⟩ => ⟨S1024x1024, .bf16⟩
  | .hbm, ⟨78, _⟩ => ⟨S16384x1024, .f32⟩
  | .hbm, ⟨79, _⟩ => ⟨S16384x1024, .bf16⟩
  | .hbm, ⟨80, _⟩ => ⟨S16384x1024, .bf16⟩
  | .hbm, ⟨81, _⟩ => ⟨S16384x1024, .bf16⟩
  | .hbm, ⟨82, _⟩ => ⟨S4x4096x16x64, .bf16⟩
  | .hbm, ⟨83, _⟩ => ⟨S4x16x4096x64, .bf16⟩
  | .hbm, ⟨84, _⟩ => ⟨S4x4096x16x64, .bf16⟩
  | .hbm, ⟨85, _⟩ => ⟨S4x16x4096x64, .bf16⟩
  | .hbm, ⟨86, _⟩ => ⟨S4x4096x16x64, .bf16⟩
  | .hbm, ⟨87, _⟩ => ⟨S4x16x4096x64, .bf16⟩
  | .hbm, ⟨88, _⟩ => ⟨S4x16x4096x64, .bf16⟩
  | .hbm, ⟨89, _⟩ => ⟨S4x4096x16x64, .bf16⟩
  | .hbm, ⟨90, _⟩ => ⟨S16384x1024, .bf16⟩
  | .hbm, ⟨91, _⟩ => ⟨S16384x1024, .f32⟩
  | .hbm, ⟨92, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1x4096x64, .bf16⟩
  | .local _ .vmem, ⟨12, _⟩ => ⟨S1x1x4096x64, .bf16⟩
  | .local _ .vmem, ⟨13, _⟩ => ⟨S1x1x4096x64, .bf16⟩
  | .local _ .vmem, ⟨14, _⟩ => ⟨S1x1x4096x64, .bf16⟩
  | .local _ .vmem, ⟨15, _⟩ => ⟨S1x1x4096x64, .bf16⟩
  | .local _ .vmem, ⟨16, _⟩ => ⟨S1x1x4096x64, .bf16⟩
  | .local _ .vmem, ⟨17, _⟩ => ⟨S1x1x4096x64, .bf16⟩
  | .local _ .vmem, ⟨18, _⟩ => ⟨S1x1x4096x64, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57_0 : Ref sig .tc := ⟨.hbm, 79, rfl⟩
abbrev main_v57_1 : Ref sig .tc := ⟨.hbm, 80, rfl⟩
abbrev main_v57_2 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bitsLt_bf16_f32 : FTy.bits .bf16 < FTy.bits .f32
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S4x4096x16x64 : S16384x1024.ShapeCasts S4x4096x16x64
  transposes_S4x4096x16x64_S4x16x4096x64_0_2_1_3 : S4x4096x16x64.Transposes [0, 2, 1, 3] S4x16x4096x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  reduces_S64x64_S64 : S64x64.Reduces [1] S64
  shapeCasts_S64_S64x1 : S64.ShapeCasts S64x1
  broadcasts_S64x1_S64x64 : S64x1.Broadcasts S64x64
  shapeCasts_S4096x64_S1x1x4096x64 : S4096x64.ShapeCasts S1x1x4096x64
  packedbf16_S1x1x4096x64_S1x1x4096x64_0_0_0_0 : (Rect.unit (s := S1x1x4096x64) ![0, 0, 0, 0] S1x1x4096x64.size inb_S1x1x4096x64_S1x1x4096x64_0_0_0_0).PackedRows (EltTy.packing .bf16)
  transposes_S4x16x4096x64_S4x4096x16x64_0_2_1_3 : S4x16x4096x64.Transposes [0, 2, 1, 3] S4x4096x16x64
  shapeCasts_S4x4096x16x64_S16384x1024 : S4x4096x16x64.ShapeCasts S16384x1024
  shapeCasts_S16384x1024_S4x4096x1024 : S16384x1024.ShapeCasts S4x4096x1024
  dot_S512x1024_S1024x1024_S512x1024_1_1_0_0_n_n_wf : DotDims.WF S512x1024 S1024x1024 S512x1024 [1] [1] [0] [0] [] []
  dot_S4096x64_S4096x64_S64x64_0_0_1_1_n_n_wf : DotDims.WF S4096x64 S4096x64 S64x64 [0] [0] [1] [1] [] []
  dot_S4096x64_S64x64_S4096x64_1_1_0_0_n_n_wf : DotDims.WF S4096x64 S64x64 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x64.size a ≤ S4x16x4096x64.size a
  hwx1_0 : ∀ i : grid1.Coords, EltTy.bits .bf16 = 32 ∨ (Rect.block (s := S4x16x4096x64) S1x1x4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096x64.size a ≤ S4x16x4096x64.size a
  hwx1_1 : ∀ i : grid1.Coords, EltTy.bits .bf16 = 32 ∨ (Rect.block (s := S4x16x4096x64) S1x1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x64.size a ≤ S4x16x4096x64.size a
  hwx1_2 : ∀ i : grid1.Coords, EltTy.bits .bf16 = 32 ∨ (Rect.block (s := S4x16x4096x64) S1x1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096x64.size a ≤ S4x16x4096x64.size a
  hwx1_3 : ∀ i : grid1.Coords, EltTy.bits .bf16 = 32 ∨ (Rect.block (s := S4x16x4096x64) S1x1x4096x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S16384x1024.size a
  hwx2_2 : ∀ i : grid2.Coords, EltTy.bits .f32 = 32 ∨ (Rect.block (s := S16384x1024) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .f32 = 32 ∨ (Rect.block (s := S16384x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf

abbrev win0_0 : Pipeline.Window sig grid0 :=
  Pipeline.Window.ofSpec (Memref.whole main_v56) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v57_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v57_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v59) S1x1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1x1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S4x4096x16x64 : Shape := ⟨4, ![4, 4096, 16, 64]⟩
abbrev S4x16x4096x64 : Shape := ⟨4, ![4, 16, 4096, 64]⟩
abbrev S4x16x4096 : Shape := ⟨3, ![4, 16, 4096]⟩
abbrev S4x16x4096x1 : Shape := ⟨4, ![4, 16, 4096, 1]⟩
abbrev S4x16x64x64 : Shape := ⟨4, ![4, 16, 64, 64]⟩
abbrev S4x16x64 : Shape := ⟨3, ![4, 16, 64]⟩
abbrev S4x16x64x1 : Shape := ⟨4, ![4, 16, 64, 1]⟩

abbrev nBuf : Space → Nat
  | .hbm => 141
  | .vmem => 0
  | .smem => 0
  | _ => 0

abbrev hbmTy0_0 (i : Nat) : BufTy := match i % 128 with
  | 0 => ⟨S4x4096x1024, .f32⟩
  | 1 => ⟨S_, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S_, .f32⟩
  | 15 => ⟨S1024x1, .f32⟩
  | 16 => ⟨S1024x1, .f32⟩
  | 17 => ⟨S1024x1024, .f32⟩
  | 18 => ⟨S1024x1024, .f32⟩
  | 19 => ⟨S_, .f32⟩
  | 20 => ⟨S_, .f32⟩
  | 21 => ⟨S1024x1024, .f32⟩
  | 22 => ⟨S1024x1024, .f32⟩
  | 23 => ⟨S4x4096x1024, .f32⟩
  | 24 => ⟨S4x4096x16x64, .f32⟩
  | 25 => ⟨S4x16x4096x64, .f32⟩
  | 26 => ⟨S1024x1024, .f32⟩
  | 27 => ⟨S_, .f32⟩
  | 28 => ⟨S1024, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S_, .f32⟩
  | 35 => ⟨S1024x1, .f32⟩
  | 36 => ⟨S1024x1, .f32⟩
  | 37 => ⟨S1024x1024, .f32⟩
  | 38 => ⟨S1024x1024, .f32⟩
  | 39 => ⟨S_, .f32⟩
  | 40 => ⟨S_, .f32⟩
  | 41 => ⟨S1024x1024, .f32⟩
  | 42 => ⟨S1024x1024, .f32⟩
  | 43 => ⟨S4x4096x1024, .f32⟩
  | 44 => ⟨S4x4096x16x64, .f32⟩
  | 45 => ⟨S4x16x4096x64, .f32⟩
  | 46 => ⟨S1024x1024, .f32⟩
  | 47 => ⟨S_, .f32⟩
  | 48 => ⟨S1024, .f32⟩
  | 49 => ⟨S1024x1, .f32⟩
  | 50 => ⟨S1024x1, .f32⟩
  | 51 => ⟨S_, .f32⟩
  | 52 => ⟨S1024x1, .f32⟩
  | 53 => ⟨S1024x1, .f32⟩
  | 54 => ⟨S_, .f32⟩
  | 55 => ⟨S1024x1, .f32⟩
  | 56 => ⟨S1024x1, .f32⟩
  | 57 => ⟨S1024x1024, .f32⟩
  | 58 => ⟨S1024x1024, .f32⟩
  | 59 => ⟨S_, .f32⟩
  | 60 => ⟨S_, .f32⟩
  | 61 => ⟨S1024x1024, .f32⟩
  | 62 => ⟨S1024x1024, .f32⟩
  | 63 => ⟨S4x4096x1024, .f32⟩
  | 64 => ⟨S4x4096x16x64, .f32⟩
  | 65 => ⟨S4x16x4096x64, .f32⟩
  | 66 => ⟨S4x16x4096x64, .f32⟩
  | 67 => ⟨S_, .f32⟩
  | 68 => ⟨S4x16x4096, .f32⟩
  | 69 => ⟨S4x16x4096x1, .f32⟩
  | 70 => ⟨S4x16x4096x1, .f32⟩
  | 71 => ⟨S_, .f32⟩
  | 72 => ⟨S4x16x4096x1, .f32⟩
  | 73 => ⟨S4x16x4096x1, .f32⟩
  | 74 => ⟨S_, .f32⟩
  | 75 => ⟨S4x16x4096x1, .f32⟩
  | 76 => ⟨S4x16x4096x1, .f32⟩
  | 77 => ⟨S4x16x4096x64, .f32⟩
  | 78 => ⟨S4x16x4096x64, .f32⟩
  | 79 => ⟨S4x16x4096x64, .f32⟩
  | 80 => ⟨S_, .f32⟩
  | 81 => ⟨S4x16x4096, .f32⟩
  | 82 => ⟨S4x16x4096x1, .f32⟩
  | 83 => ⟨S4x16x4096x1, .f32⟩
  | 84 => ⟨S_, .f32⟩
  | 85 => ⟨S4x16x4096x1, .f32⟩
  | 86 => ⟨S4x16x4096x1, .f32⟩
  | 87 => ⟨S_, .f32⟩
  | 88 => ⟨S4x16x4096x1, .f32⟩
  | 89 => ⟨S4x16x4096x1, .f32⟩
  | 90 => ⟨S4x16x4096x64, .f32⟩
  | 91 => ⟨S4x16x4096x64, .f32⟩
  | 92 => ⟨S_, .f32⟩
  | 93 => ⟨S4x16x4096x64, .f32⟩
  | 94 => ⟨S4x16x4096x64, .f32⟩
  | 95 => ⟨S4x16x64x64, .f32⟩
  | 96 => ⟨S_, .f32⟩
  | 97 => ⟨S4x16x64, .f32⟩
  | 98 => ⟨S_, .f32⟩
  | 99 => ⟨S4x16x64, .f32⟩
  | 100 => ⟨S4x16x64, .f32⟩
  | 101 => ⟨S4x16x64x1, .f32⟩
  | 102 => ⟨S4x16x64x64, .f32⟩
  | 103 => ⟨S4x16x64x64, .f32⟩
  | 104 => ⟨S4x16x64x64, .f32⟩
  | 105 => ⟨S_, .f32⟩
  | 106 => ⟨S4x16x64, .f32⟩
  | 107 => ⟨S4x16x64x1, .f32⟩
  | 108 => ⟨S4x16x64x64, .f32⟩
  | 109 => ⟨S4x16x64x64, .f32⟩
  | 110 => ⟨S4x16x4096x64, .f32⟩
  | 111 => ⟨S4x4096x16x64, .f32⟩
  | 112 => ⟨S4x4096x1024, .f32⟩
  | 113 => ⟨S1024x1024, .f32⟩
  | 114 => ⟨S_, .f32⟩
  | 115 => ⟨S1024, .f32⟩
  | 116 => ⟨S1024x1, .f32⟩
  | 117 => ⟨S1024x1, .f32⟩
  | 118 => ⟨S_, .f32⟩
  | 119 => ⟨S1024x1, .f32⟩
  | 120 => ⟨S1024x1, .f32⟩
  | 121 => ⟨S_, .f32⟩
  | 122 => ⟨S1024x1, .f32⟩
  | 123 => ⟨S1024x1, .f32⟩
  | 124 => ⟨S1024x1024, .f32⟩
  | 125 => ⟨S1024x1024, .f32⟩
  | 126 => ⟨S_, .f32⟩
  | 127 => ⟨S_, .f32⟩
  | _ => ⟨S4x4096x1024, .f32⟩

abbrev hbmTy0_1 (i : Nat) : BufTy := match i % 128 with
  | 0 => ⟨S1024x1024, .f32⟩
  | 1 => ⟨S1024x1024, .f32⟩
  | 2 => ⟨S4x4096x1024, .f32⟩
  | 3 => ⟨S_, .f32⟩
  | 4 => ⟨S4x4096x1024, .f32⟩
  | 5 => ⟨S4x4096x1024, .f32⟩
  | 6 => ⟨S_, .f32⟩
  | 7 => ⟨S4x4096x1024, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_cst_19 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_20 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_21 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_22 : Ref sig .tc := ⟨.hbm, 118, rfl⟩
abbrev main_v89 : Ref sig .tc := ⟨.hbm, 119, rfl⟩
abbrev main_v90 : Ref sig .tc := ⟨.hbm, 120, rfl⟩
abbrev main_cst_23 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_24 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_25 : Ref sig .tc := ⟨.hbm, 131, rfl⟩
abbrev main_v99 : Ref sig .tc := ⟨.hbm, 132, rfl⟩
abbrev main_v100 : Ref sig .tc := ⟨.hbm, 133, rfl⟩
abbrev main_cst_26 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_27 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  reducesTo_S4x16x4096x64_S4x16x4096_d3 : S4x16x4096x64.ReducesTo [3] S4x16x4096
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  bcast_S_S4x16x4096x64 : S_.BroadcastsInDim S4x16x4096x64 (![] : Fin 0 → Fin S4x16x4096x64.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  bcast_S_S4x4096x1024 : S_.BroadcastsInDim S4x4096x1024 (![] : Fin 0 → Fin S4x4096x1024.rank)
  dot_S4x4096x1024_S1024x1024_S4x4096x1024_2_1_01_0_n_n_wf : DotDims.WF S4x4096x1024 S1024x1024 S4x4096x1024 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_3_2_2_01_01_wf : DotDims.WF S4x16x4096x64 S4x16x64x64 S4x16x4096x64 [3] [3] [2] [2] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_3_2_2_01_01 : DotDims S4x16x4096x64 S4x16x64x64 S4x16x4096x64 where
  lhsContracting := [3]
  rhsContracting := [3]
  lhsNonContracting := [2]
  rhsNonContracting := [2]
  lhsBatch := [0, 1]
  rhsBatch := [0, 1]
  wf := dot_S4x16x4096x64_S4x16x64x64_S4x16x4096x64_3_3_2_2_01_01_wf

class Facts : Prop extends Facts₀ where

variable [Facts]
-- ==== Proof.Blocks.lean ====
/-
  Blocks of the kernel's arrays, as plain functions.

  The first and third launches walk a [16384, 1024] array in 32 blocks of 512 whole rows; the second walks a
  [4, 16, 4096, 64] array one (batch, head) slab at a time. `rowsBlk A t` is block `t` of rows, `slab A b n` the slab at
  batch `b` and head `n` with its two leading unit axes kept, as the kernel's staging buffers hold them.
-/
import proofs.«102114_j26654567039403_1_alg».proof.KernelIdeal
import Idealize.ShloMosaic.Lib.ValueIdx

noncomputable section

namespace Cert.Bridge

open Idealize.ShloMosaic Idealize.ShloMosaic.ValueIdx Cert.KernelIdeal

/-- Row `512 * t + r` of the big array, for a block number `t < 32` and a row `r < 512` inside the block. -/
def rowOf (t : Fin 32) (r : Fin 512) : Fin 16384 := ⟨512 * t.val + r.val, by have := t.isLt; have := r.isLt; omega⟩

/-- Block `t` of 512 whole rows of a [16384, 1024] array. -/
def rowsBlk {α : Type} (A : S16384x1024.Idx → α) (t : Fin 32) : S512x1024.Idx → α :=
  fun y => A (ix2 (rowOf t (y 0)) (y 1))

/-- The (batch, head) slab of a [4, 16, 4096, 64] array, as a [1, 1, 4096, 64] block. -/
def slab {α : Type} (A : S4x16x4096x64.Idx → α) (b : Fin 4) (n : Fin 16) : S1x1x4096x64.Idx → α :=
  fun y => A (ix4 b n (y 2) (y 3))

theorem rowsBlk_apply {α : Type} (A : S16384x1024.Idx → α) (t : Fin 32) (y : S512x1024.Idx) :
    rowsBlk A t y = A (ix2 (rowOf t (y 0)) (y 1)) := rfl

theorem slab_apply {α : Type} (A : S4x16x4096x64.Idx → α) (b : Fin 4) (n : Fin 16) (y : S1x1x4096x64.Idx) :
    slab A b n y = A (ix4 b n (y 2) (y 3)) := rfl

end Cert.Bridge

end
-- ==== Proof.Reg0Array.lean ====
/-
  First launch, from blocks to arrays: each of its three result arrays ends holding `Out` when, at every block of 512
  rows, the body's stored value computed from that block of the input rows and the whole weight matrix is the same
  block of `Out`.
-/
import proofs.«102114_j26654567039403_1_alg».proof.Proof.Gen.KernelIdeal.Frame
import proofs.«102114_j26654567039403_1_alg».proof.Proof.Blocks
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block rectangle, as the constant function. -/
private theorem zeroOffsets : (![0, 0] : Fin 2 → Nat) = fun _ => 0 := funext fun a => by fin_cases a <;> rfl

/-- The block index of every window at every one of the 32 points: the row windows (the input rows and the three
    results) sit at block (t, 0), the three weight matrices at block (0, 0). -/
private theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A point of the grid is a block number below 32. -/
private theorem pointLt (t : Fin cfg0.N) : t.val < 32 := lt_of_lt_of_eq t.isLt N_0

/-- The input rows' block at point `t` is block `t` of 512 rows: row `t * 512 + r`, every column. -/
private theorem rowsIn (c : Dev nD) (Xf : S16384x1024.Idx → EReal) (hx : V c main_v56 = Xf) (t : Fin cfg0.N) :
    iblk0 (F := Ideal) V c 0 t = rowsBlk Xf ⟨t.val, pointLt t⟩ := by
  obtain ⟨e0, e1, -⟩ := blockIndex0 t
  funext y
  unfold iblk0
  rw [View.read_apply]
  show V c main_v56 _ = _
  rw [hx, rowsBlk_apply]
  refine congrArg Xf (funext fun a => Fin.ext ?_)
  match a with
  | ⟨0, _⟩ => show win0_0.index t (0 : Fin 2) * 512 + 1 * (y 0).val = 512 * t.val + (y 0).val; rw [e0]; omega
  | ⟨1, _⟩ => show win0_0.index t (1 : Fin 2) * 1024 + 1 * (y 1).val = (y 1).val; rw [e1]; omega

/-- Weight window 1's block at every point is the whole [1024, 1024] matrix: block (0, 0) of size the array's. -/
private theorem wholeIn1 (c : Dev nD) (Wt : S1024x1024.Idx → EReal) (hw : V c main_v52 = Wt) (t : Fin cfg0.N) :
    iblk0 (F := Ideal) V c 1 t = Wt := by
  obtain ⟨-, -, e0, e1, -⟩ := blockIndex0 t
  funext y
  unfold iblk0
  rw [View.read_apply]
  show V c main_v52 _ = _
  rw [hw]
  refine congrArg Wt (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- Weight window 2's block at every point is the whole [1024, 1024] matrix: block (0, 0) of size the array's. -/
private theorem wholeIn2 (c : Dev nD) (Wt : S1024x1024.Idx → EReal) (hw : V c main_v53 = Wt) (t : Fin cfg0.N) :
    iblk0 (F := Ideal) V c 2 t = Wt := by
  obtain ⟨-, -, -, -, e0, e1, -⟩ := blockIndex0 t
  funext y
  unfold iblk0
  rw [View.read_apply]
  show V c main_v53 _ = _
  rw [hw]
  refine congrArg Wt (funext fun a => Fin.ext ?_)
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- Weight window 3's block at every point is the whole [1024, 1024] matrix: block (0, 0) of size the array's. -/
private theorem wholeIn3 (c : Dev nD) (Wt : S1024x1024.Idx → EReal) (hw : V c main_v54 = Wt) (t : Fin cfg0.N) :
    iblk0 (F := Ideal) V c 3 t = Wt := by
  obtain ⟨-, -, -, -, -, -, e0, e1, -⟩ := blockIndex0 t
  funext y
  unfold iblk0
  rw [View.read_apply]
  show V c main_v54 _ = _
  rw [hw]
  refine congrArg Wt (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-! ## Result window 4 -/

/-- Result window 4's block at point `t`, read off an array, is block `t` of its 512 rows. -/
private theorem rowsOut4 (Out : S16384x1024.Idx → EReal) (t : Fin cfg0.N) :
    ((cfg0.win 4).blk t).view.read (Elt Ideal) Out = rowsBlk Out ⟨t.val, pointLt t⟩ := by
  obtain ⟨-, -, -, -, -, -, -, -, e0, e1, -⟩ := blockIndex0 t
  funext y
  rw [View.read_apply, rowsBlk_apply]
  refine congrArg Out (funext fun a => Fin.ext ?_)
  match a with
  | ⟨0, _⟩ => show win0_4.index t (0 : Fin 2) * 512 + 1 * (y 0).val = 512 * t.val + (y 0).val; rw [e0]; omega
  | ⟨1, _⟩ => show win0_4.index t (1 : Fin 2) * 1024 + 1 * (y 1).val = (y 1).val; rw [e1]; omega

/-- What point `t` writes back through result window 4 is block `t` of `Out`: the body's one store covers its
    whole buffer, its loads read whole buffers, and the stored value of block `t` of the rows and the whole weight
    matrix is block `t` of `Out` by hypothesis. -/
private theorem flushed4 (c : Dev nD) (Xf : S16384x1024.Idx → EReal) (Wt : S1024x1024.Idx → EReal) (Out : S16384x1024.Idx → EReal)
    (hx : V c main_v56 = Xf) (hw : V c main_v52 = Wt)
    (hblock : ∀ t : Fin 32, k0_pay2 (F := Ideal) (rowsBlk Xf t) Wt = rowsBlk Out t) (t : Fin cfg0.N) :
    (dat0 (F := Ideal) V c).flushed 4 t = ((cfg0.win 4).blk t).view.read (Elt Ideal) Out := by
  show (cfg0.win 4).cut (grid0.coords t) ((dat0 (F := Ideal) V c).after 4 t) = _
  rw [after0_4]
  unfold out0_4
  rw [View.canon_unit_zero zeroOffsets]
  simp only [View.ld_unit_zero (S := S512x1024) zeroOffsets, View.ld_unit_zero (S := S1024x1024) zeroOffsets]
  rw [rowsIn V c Xf hx t, wholeIn1 V c Wt hw t, hblock, rowsOut4 Out t]
  rfl

/-- An index of the result array is in point `t`'s block iff each coordinate is in the block's range on its axis. -/
private theorem memBlock4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v57_0).slice (win0_4.rect t)).set ↔ _
  rw [View.set_slice_whole, Rect.mem_set_unit]
  exact Iff.rfl

/-- The 32 blocks of 512 rows tile the array: row `r` is in the block of point `r / 512`. -/
private theorem covered4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hq : (i 0).val / 512 < 32 := by omega
  obtain ⟨t, ht⟩ : ∃ t : Fin cfg0.N, t.val = (i 0).val / 512 := ⟨⟨(i 0).val / 512, lt_of_lt_of_eq hq N_0.symm⟩, rfl⟩
  obtain ⟨-, -, -, -, -, -, -, -, e0, e1, -⟩ := blockIndex0 t
  refine ⟨t, flush0_4 t, ?_⟩
  rw [memBlock4]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1]; omega

theorem region0_array4 (c : Dev nD) (Xf : S16384x1024.Idx → EReal) (Wt : S1024x1024.Idx → EReal) (Out : S16384x1024.Idx → EReal)
    (hx : V c main_v56 = Xf) (hw : V c main_v52 = Wt)
    (hblock : ∀ t : Fin 32, k0_pay2 (F := Ideal) (rowsBlk Xf t) Wt = rowsBlk Out t) :
    (dat0 (F := Ideal) V c).arrAt 4 cfg0.N = Out :=
  (dat0 (F := Ideal) V c).arrAt_eq_of_cover 4 Out (fun t _ => flushed4 V c Xf Wt Out hx hw hblock t) covered4

/-! ## Result window 5 -/

/-- Result window 5's block at point `t`, read off an array, is block `t` of its 512 rows. -/
private theorem rowsOut5 (Out : S16384x1024.Idx → EReal) (t : Fin cfg0.N) :
    ((cfg0.win 5).blk t).view.read (Elt Ideal) Out = rowsBlk Out ⟨t.val, pointLt t⟩ := by
  obtain ⟨-, -, -, -, -, -, -, -, -, -, e0, e1, -⟩ := blockIndex0 t
  funext y
  rw [View.read_apply, rowsBlk_apply]
  refine congrArg Out (funext fun a => Fin.ext ?_)
  match a with
  | ⟨0, _⟩ => show win0_5.index t (0 : Fin 2) * 512 + 1 * (y 0).val = 512 * t.val + (y 0).val; rw [e0]; omega
  | ⟨1, _⟩ => show win0_5.index t (1 : Fin 2) * 1024 + 1 * (y 1).val = (y 1).val; rw [e1]; omega

/-- What point `t` writes back through result window 5 is block `t` of `Out`: the body's one store covers its
    whole buffer, its loads read whole buffers, and the stored value of block `t` of the rows and the whole weight
    matrix is block `t` of `Out` by hypothesis. -/
private theorem flushed5 (c : Dev nD) (Xf : S16384x1024.Idx → EReal) (Wt : S1024x1024.Idx → EReal) (Out : S16384x1024.Idx → EReal)
    (hx : V c main_v56 = Xf) (hw : V c main_v53 = Wt)
    (hblock : ∀ t : Fin 32, k0_pay3 (F := Ideal) (rowsBlk Xf t) Wt = rowsBlk Out t) (t : Fin cfg0.N) :
    (dat0 (F := Ideal) V c).flushed 5 t = ((cfg0.win 5).blk t).view.read (Elt Ideal) Out := by
  show (cfg0.win 5).cut (grid0.coords t) ((dat0 (F := Ideal) V c).after 5 t) = _
  rw [after0_5]
  unfold out0_5
  rw [View.canon_unit_zero zeroOffsets]
  simp only [View.ld_unit_zero (S := S512x1024) zeroOffsets, View.ld_unit_zero (S := S1024x1024) zeroOffsets]
  rw [rowsIn V c Xf hx t, wholeIn2 V c Wt hw t, hblock, rowsOut5 Out t]
  rfl

/-- An index of the result array is in point `t`'s block iff each coordinate is in the block's range on its axis. -/
private theorem memBlock5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v57_1).slice (win0_5.rect t)).set ↔ _
  rw [View.set_slice_whole, Rect.mem_set_unit]
  exact Iff.rfl

/-- The 32 blocks of 512 rows tile the array: row `r` is in the block of point `r / 512`. -/
private theorem covered5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hq : (i 0).val / 512 < 32 := by omega
  obtain ⟨t, ht⟩ : ∃ t : Fin cfg0.N, t.val = (i 0).val / 512 := ⟨⟨(i 0).val / 512, lt_of_lt_of_eq hq N_0.symm⟩, rfl⟩
  obtain ⟨-, -, -, -, -, -, -, -, -, -, e0, e1, -⟩ := blockIndex0 t
  refine ⟨t, flush0_5 t, ?_⟩
  rw [memBlock5]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

theorem region0_array5 (c : Dev nD) (Xf : S16384x1024.Idx → EReal) (Wt : S1024x1024.Idx → EReal) (Out : S16384x1024.Idx → EReal)
    (hx : V c main_v56 = Xf) (hw : V c main_v53 = Wt)
    (hblock : ∀ t : Fin 32, k0_pay3 (F := Ideal) (rowsBlk Xf t) Wt = rowsBlk Out t) :
    (dat0 (F := Ideal) V c).arrAt 5 cfg0.N = Out :=
  (dat0 (F := Ideal) V c).arrAt_eq_of_cover 5 Out (fun t _ => flushed5 V c Xf Wt Out hx hw hblock t) covered5

/-! ## Result window 6 -/

/-- Result window 6's block at point `t`, read off an array, is block `t` of its 512 rows. -/
private theorem rowsOut6 (Out : S16384x1024.Idx → EReal) (t : Fin cfg0.N) :
    ((cfg0.win 6).blk t).view.read (Elt Ideal) Out = rowsBlk Out ⟨t.val, pointLt t⟩ := by
  obtain ⟨-, -, -, -, -, -, -, -, -, -, -, -, e0, e1⟩ := blockIndex0 t
  funext y
  rw [View.read_apply, rowsBlk_apply]
  refine congrArg Out (funext fun a => Fin.ext ?_)
  match a with
  | ⟨0, _⟩ => show win0_6.index t (0 : Fin 2) * 512 + 1 * (y 0).val = 512 * t.val + (y 0).val; rw [e0]; omega
  | ⟨1, _⟩ => show win0_6.index t (1 : Fin 2) * 1024 + 1 * (y 1).val = (y 1).val; rw [e1]; omega

/-- What point `t` writes back through result window 6 is block `t` of `Out`: the body's one store covers its
    whole buffer, its loads read whole buffers, and the stored value of block `t` of the rows and the whole weight
    matrix is block `t` of `Out` by hypothesis. -/
private theorem flushed6 (c : Dev nD) (Xf : S16384x1024.Idx → EReal) (Wt : S1024x1024.Idx → EReal) (Out : S16384x1024.Idx → EReal)
    (hx : V c main_v56 = Xf) (hw : V c main_v54 = Wt)
    (hblock : ∀ t : Fin 32, k0_pay4 (F := Ideal) (rowsBlk Xf t) Wt = rowsBlk Out t) (t : Fin cfg0.N) :
    (dat0 (F := Ideal) V c).flushed 6 t = ((cfg0.win 6).blk t).view.read (Elt Ideal) Out := by
  show (cfg0.win 6).cut (grid0.coords t) ((dat0 (F := Ideal) V c).after 6 t) = _
  rw [after0_6]
  unfold out0_6
  rw [View.canon_unit_zero zeroOffsets]
  simp only [View.ld_unit_zero (S := S512x1024) zeroOffsets, View.ld_unit_zero (S := S1024x1024) zeroOffsets]
  rw [rowsIn V c Xf hx t, wholeIn3 V c Wt hw t, hblock, rowsOut6 Out t]
  rfl

/-- An index of the result array is in point `t`'s block iff each coordinate is in the block's range on its axis. -/
private theorem memBlock6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v57_2).slice (win0_6.rect t)).set ↔ _
  rw [View.set_slice_whole, Rect.mem_set_unit]
  exact Iff.rfl

/-- The 32 blocks of 512 rows tile the array: row `r` is in the block of point `r / 512`. -/
private theorem covered6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hq : (i 0).val / 512 < 32 := by omega
  obtain ⟨t, ht⟩ : ∃ t : Fin cfg0.N, t.val = (i 0).val / 512 := ⟨⟨(i 0).val / 512, lt_of_lt_of_eq hq N_0.symm⟩, rfl⟩
  obtain ⟨-, -, -, -, -, -, -, -, -, -, -, -, e0, e1⟩ := blockIndex0 t
  refine ⟨t, flush0_6 t, ?_⟩
  rw [memBlock6]
  intro a
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 1024 ≤ (i 1).val ∧ (i 1).val < win0_6.index t (1 : Fin 2) * 1024 + 1024; rw [e1]; omega

theorem region0_array6 (c : Dev nD) (Xf : S16384x1024.Idx → EReal) (Wt : S1024x1024.Idx → EReal) (Out : S16384x1024.Idx → EReal)
    (hx : V c main_v56 = Xf) (hw : V c main_v54 = Wt)
    (hblock : ∀ t : Fin 32, k0_pay4 (F := Ideal) (rowsBlk Xf t) Wt = rowsBlk Out t) :
    (dat0 (F := Ideal) V c).arrAt 6 cfg0.N = Out :=
  (dat0 (F := Ideal) V c).arrAt_eq_of_cover 6 Out (fun t _ => flushed6 V c Xf Wt Out hx hw hblock t) covered6

end Cert.Bridge

end
-- ==== Proof.Reg1Array.lean ====
/-
  Second launch, from slabs to the array: its result array ends holding `Out` when, at every (batch, head), the body's
  stored value computed from the three input slabs is that slab of `Out`.
-/
import proofs.«102114_j26654567039403_1_alg».proof.Proof.Gen.KernelIdeal.Frame
import proofs.«102114_j26654567039403_1_alg».proof.Proof.Blocks
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer load or store, as the constant function. -/
private theorem zero4 : (![0, 0, 0, 0] : Fin 4 → Nat) = fun _ => 0 := funext fun a => by fin_cases a <;> rfl

/-- The grid is [4, 16], last axis fastest: point `t` is batch `t / 16`, head `t % 16`, and each of the four windows'
    block index there is (batch, head, 0, 0). Decided over the 64 points. -/
private theorem point_blocks : ∀ t : Fin cfg1.N,
    (win1_3.index t (0 : Fin 4) = t.val / 16 ∧ win1_3.index t (1 : Fin 4) = t.val % 16
      ∧ win1_3.index t (2 : Fin 4) = 0 ∧ win1_3.index t (3 : Fin 4) = 0)
    ∧ (win1_0.index t (0 : Fin 4) = t.val / 16 ∧ win1_0.index t (1 : Fin 4) = t.val % 16
      ∧ win1_0.index t (2 : Fin 4) = 0 ∧ win1_0.index t (3 : Fin 4) = 0)
    ∧ (win1_1.index t (0 : Fin 4) = t.val / 16 ∧ win1_1.index t (1 : Fin 4) = t.val % 16
      ∧ win1_1.index t (2 : Fin 4) = 0 ∧ win1_1.index t (3 : Fin 4) = 0)
    ∧ (win1_2.index t (0 : Fin 4) = t.val / 16 ∧ win1_2.index t (1 : Fin 4) = t.val % 16
      ∧ win1_2.index t (2 : Fin 4) = 0 ∧ win1_2.index t (3 : Fin 4) = 0) :=
  (by decide +kernel : ∀ t : Fin grid1.N, _)

/-- The block that input window 0 stages at point `t` is the (t / 16, t % 16) slab of its array: on the two leading
    axes the block index is the batch and the head and the block has one entry; on the two trailing axes the block
    index is 0 and the block is the whole axis. -/
private theorem in_block0 (c : Dev nD) (Q : S4x16x4096x64.Idx → EReal) (hQ : V c main_v59 = Q) (t : Fin cfg1.N)
    (b : Fin 4) (n : Fin 16) (hb : b.val = t.val / 16) (hn : n.val = t.val % 16) :
    iblk1 (F := Ideal) V c 0 t = slab Q b n := by
  obtain ⟨-, ⟨e0, e1, e2, e3⟩, -, -⟩ := point_blocks t
  funext y
  unfold iblk1
  rw [View.read_apply]
  show V c main_v59 (((cfg1.win 0).blk t).view.emb y) = slab Q b n y
  rw [hQ, slab_apply]
  congr 1
  funext a; apply Fin.ext
  match a with
  | ⟨0, _⟩ => show win1_0.index t (0 : Fin 4) * 1 + 1 * (y 0).val = b.val; have hy : (y 0).val < 1 := (y 0).isLt; omega
  | ⟨1, _⟩ => show win1_0.index t (1 : Fin 4) * 1 + 1 * (y 1).val = n.val; have hy : (y 1).val < 1 := (y 1).isLt; omega
  | ⟨2, _⟩ => show win1_0.index t (2 : Fin 4) * 4096 + 1 * (y 2).val = (y 2).val; omega
  | ⟨3, _⟩ => show win1_0.index t (3 : Fin 4) * 64 + 1 * (y 3).val = (y 3).val; omega

/-- The block that input window 1 stages at point `t` is the (t / 16, t % 16) slab of its array: on the two leading
    axes the block index is the batch and the head and the block has one entry; on the two trailing axes the block
    index is 0 and the block is the whole axis. -/
private theorem in_block1 (c : Dev nD) (K : S4x16x4096x64.Idx → EReal) (hK : V c main_v61 = K) (t : Fin cfg1.N)
    (b : Fin 4) (n : Fin 16) (hb : b.val = t.val / 16) (hn : n.val = t.val % 16) :
    iblk1 (F := Ideal) V c 1 t = slab K b n := by
  obtain ⟨-, -, ⟨e0, e1, e2, e3⟩, -⟩ := point_blocks t
  funext y
  unfold iblk1
  rw [View.read_apply]
  show V c main_v61 (((cfg1.win 1).blk t).view.emb y) = slab K b n y
  rw [hK, slab_apply]
  congr 1
  funext a; apply Fin.ext
  match a with
  | ⟨0, _⟩ => show win1_1.index t (0 : Fin 4) * 1 + 1 * (y 0).val = b.val; have hy : (y 0).val < 1 := (y 0).isLt; omega
  | ⟨1, _⟩ => show win1_1.index t (1 : Fin 4) * 1 + 1 * (y 1).val = n.val; have hy : (y 1).val < 1 := (y 1).isLt; omega
  | ⟨2, _⟩ => show win1_1.index t (2 : Fin 4) * 4096 + 1 * (y 2).val = (y 2).val; omega
  | ⟨3, _⟩ => show win1_1.index t (3 : Fin 4) * 64 + 1 * (y 3).val = (y 3).val; omega

/-- The block that input window 2 stages at point `t` is the (t / 16, t % 16) slab of its array: on the two leading
    axes the block index is the batch and the head and the block has one entry; on the two trailing axes the block
    index is 0 and the block is the whole axis. -/
private theorem in_block2 (c : Dev nD) (Vv : S4x16x4096x64.Idx → EReal) (hVv : V c main_v63 = Vv) (t : Fin cfg1.N)
    (b : Fin 4) (n : Fin 16) (hb : b.val = t.val / 16) (hn : n.val = t.val % 16) :
    iblk1 (F := Ideal) V c 2 t = slab Vv b n := by
  obtain ⟨-, -, -, e0, e1, e2, e3⟩ := point_blocks t
  funext y
  unfold iblk1
  rw [View.read_apply]
  show V c main_v63 (((cfg1.win 2).blk t).view.emb y) = slab Vv b n y
  rw [hVv, slab_apply]
  congr 1
  funext a; apply Fin.ext
  match a with
  | ⟨0, _⟩ => show win1_2.index t (0 : Fin 4) * 1 + 1 * (y 0).val = b.val; have hy : (y 0).val < 1 := (y 0).isLt; omega
  | ⟨1, _⟩ => show win1_2.index t (1 : Fin 4) * 1 + 1 * (y 1).val = n.val; have hy : (y 1).val < 1 := (y 1).isLt; omega
  | ⟨2, _⟩ => show win1_2.index t (2 : Fin 4) * 4096 + 1 * (y 2).val = (y 2).val; omega
  | ⟨3, _⟩ => show win1_2.index t (3 : Fin 4) * 64 + 1 * (y 3).val = (y 3).val; omega

/-- The (t / 16, t % 16) slab of an array, cut as the result window's write-back cuts its staging buffer (nothing is cut:
    every block lies inside the array), is the array read through the result window's block at point `t`. -/
private theorem out_block (Out : S4x16x4096x64.Idx → EReal) (t : Fin cfg1.N)
    (b : Fin 4) (n : Fin 16) (hb : b.val = t.val / 16) (hn : n.val = t.val % 16) :
    (cfg1.win 3).cut (grid1.coords t) (slab Out b n) = ((cfg1.win 3).blk t).view.read (Elt Ideal) Out := by
  obtain ⟨⟨e0, e1, e2, e3⟩, -, -, -⟩ := point_blocks t
  funext y
  rw [View.read_apply]
  show slab Out b n ((cfg1.win 3).xinj (grid1.coords t) y) = Out (((cfg1.win 3).blk t).view.emb y)
  rw [slab_apply]
  congr 1
  funext a; apply Fin.ext
  match a with
  | ⟨0, _⟩ => show b.val = win1_3.index t (0 : Fin 4) * 1 + 1 * (y 0).val; have hy : (y 0).val < 1 := (y 0).isLt; omega
  | ⟨1, _⟩ => show n.val = win1_3.index t (1 : Fin 4) * 1 + 1 * (y 1).val; have hy : (y 1).val < 1 := (y 1).isLt; omega
  | ⟨2, _⟩ => show (y 2).val = win1_3.index t (2 : Fin 4) * 4096 + 1 * (y 2).val; omega
  | ⟨3, _⟩ => show (y 3).val = win1_3.index t (3 : Fin 4) * 64 + 1 * (y 3).val; omega

/-- What point `t` writes back to the result array is block `t` of `Out`: the body stores, through the whole staging
    buffer, its value computed from the three staged slabs, which the hypothesis says is the slab of `Out`. -/
private theorem point_writes (c : Dev nD) (Q K Vv Out : S4x16x4096x64.Idx → EReal)
    (hQ : V c main_v59 = Q) (hK : V c main_v61 = K) (hVv : V c main_v63 = Vv)
    (hblock : ∀ (b : Fin 4) (n : Fin 16),
      k1_pay1 (F := Ideal) (k1_pay2 (slab Vv b n)) (k1_pay3 (slab Q b n) (slab K b n)) (k1_pay4 (slab Q b n) (slab K b n)) k1_pay5
        = slab Out b n) (t : Fin cfg1.N) :
    (dat1 (F := Ideal) V c).flushed 3 t = ((cfg1.win 3).blk t).view.read (Elt Ideal) Out := by
  have hN : cfg1.N = 64 := N_1
  have ht : t.val < 64 := hN ▸ t.isLt
  have hb : (⟨t.val / 16, by omega⟩ : Fin 4).val = t.val / 16 := rfl
  have hn : (⟨t.val % 16, by omega⟩ : Fin 16).val = t.val % 16 := rfl
  show (cfg1.win 3).cut (grid1.coords t) ((dat1 V c).after 3 t) = _
  rw [after1_3]
  unfold out1_3
  rw [View.canon_unit_zero zero4]
  simp only [View.ld_unit_zero (S := S1x1x4096x64) zero4]
  rw [in_block0 V c Q hQ t _ _ hb hn, in_block1 V c K hK t _ _ hb hn, in_block2 V c Vv hVv t _ _ hb hn, hblock]
  exact out_block Out t _ _ hb hn

/-- An index of the result array is in point `t`'s block iff each coordinate is in the block's range on its axis. -/
private theorem mem_block (t : Fin cfg1.N) (i : S4x16x4096x64.Idx) :
    i ∈ ((cfg1.win 3).blk t).view.set ↔ ∀ a : Fin 4, win1_3.index t a * S1x1x4096x64.size a ≤ (i a).val ∧ (i a).val < win1_3.index t a * S1x1x4096x64.size a + S1x1x4096x64.size a := by
  show i ∈ ((View.whole main_v64).slice (win1_3.rect t)).set ↔ _
  rw [View.set_slice_whole, Rect.mem_set_unit]
  exact Iff.rfl

/-- Every index of the result array lies in the block of the point 16 * batch + head, which writes back. -/
private theorem covered (i : S4x16x4096x64.Idx) :
    ∃ t : Fin cfg1.N, (cfg1.win 3).flush t = true ∧ i ∈ ((cfg1.win 3).blk t).view.set := by
  have hN : cfg1.N = 64 := N_1
  have h0 : (i 0).val < 4 := (i 0).isLt
  have h1 : (i 1).val < 16 := (i 1).isLt
  have h2 : (i 2).val < 4096 := (i 2).isLt
  have h3 : (i 3).val < 64 := (i 3).isLt
  refine ⟨⟨(i 0).val * 16 + (i 1).val, by omega⟩, flush1_3 _, ?_⟩
  obtain ⟨⟨e0, e1, e2, e3⟩, -, -, -⟩ := point_blocks ⟨(i 0).val * 16 + (i 1).val, by omega⟩
  rw [mem_block]
  intro a
  match a with
  | ⟨0, _⟩ => show win1_3.index _ (0 : Fin 4) * 1 ≤ (i 0).val ∧ (i 0).val < win1_3.index _ (0 : Fin 4) * 1 + 1; rw [e0]; show ((i 0).val * 16 + (i 1).val) / 16 * 1 ≤ (i 0).val ∧ (i 0).val < ((i 0).val * 16 + (i 1).val) / 16 * 1 + 1; omega
  | ⟨1, _⟩ => show win1_3.index _ (1 : Fin 4) * 1 ≤ (i 1).val ∧ (i 1).val < win1_3.index _ (1 : Fin 4) * 1 + 1; rw [e1]; show ((i 0).val * 16 + (i 1).val) % 16 * 1 ≤ (i 1).val ∧ (i 1).val < ((i 0).val * 16 + (i 1).val) % 16 * 1 + 1; omega
  | ⟨2, _⟩ => show win1_3.index _ (2 : Fin 4) * 4096 ≤ (i 2).val ∧ (i 2).val < win1_3.index _ (2 : Fin 4) * 4096 + 4096; rw [e2]; omega
  | ⟨3, _⟩ => show win1_3.index _ (3 : Fin 4) * 64 ≤ (i 3).val ∧ (i 3).val < win1_3.index _ (3 : Fin 4) * 64 + 64; rw [e3]; omega

theorem region1_array3 (c : Dev nD) (Q K Vv Out : S4x16x4096x64.Idx → EReal)
    (hq : V c main_v59 = Q) (hk : V c main_v61 = K) (hv : V c main_v63 = Vv)
    (hblock : ∀ (b : Fin 4) (n : Fin 16),
      k1_pay1 (F := Ideal) (k1_pay2 (slab Vv b n)) (k1_pay3 (slab Q b n) (slab K b n)) (k1_pay4 (slab Q b n) (slab K b n)) k1_pay5
        = slab Out b n) :
    (dat1 (F := Ideal) V c).arrAt 3 cfg1.N = Out :=
  (dat1 (F := Ideal) V c).arrAt_eq_of_cover 3 Out (fun t _ => point_writes V c Q K Vv Out hq hk hv hblock t) covered

end Cert.Bridge

end
-- ==== Proof.Reg2Array.lean ====
/-
  Third launch, from blocks to the array: its result array ends holding `Out` when, at every block of 512 rows, the
  body's stored value computed from that block of the attention rows, the whole weight matrix and that block of the
  residual rows is the same block of `Out`.
-/
import proofs.«102114_j26654567039403_1_alg».proof.Proof.Gen.KernelIdeal.Frame
import proofs.«102114_j26654567039403_1_alg».proof.Proof.Blocks
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as the constant function. -/
private theorem zero_offsets : (![0, 0] : Fin 2 → Nat) = fun _ => 0 := funext fun a => by fin_cases a <;> rfl

/-- The block indices of the four windows at every one of the 32 points: the three row-block windows sit at block row
    `t`, block column 0; the weight matrix is one block at (0, 0). -/
private theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A point of the grid as a block number below 32. -/
private def blockNo (t : Fin cfg2.N) : Fin 32 := ⟨t.val, lt_of_lt_of_eq t.isLt N_2⟩

/-- The first window's block at point `t` is block `t` of the attention rows: row `512 t + r`, column `q`. -/
private theorem attn_block (c : Dev nD) (Of : S16384x1024.Idx → EReal) (ho : V c main_v66 = Of) (t : Fin cfg2.N) :
    iblk2 (F := Ideal) V c 0 t = rowsBlk Of (blockNo t) := by
  obtain ⟨e0, e1, -⟩ := block_indices t
  funext y
  unfold iblk2
  rw [View.read_apply]
  show V c main_v66 (((cfg2.win 0).blk t).view.emb y) = Of (ix2 (rowOf (blockNo t) (y 0)) (y 1))
  rw [ho]
  refine congrArg Of (funext fun a => Fin.ext ?_)
  match a with
  | ⟨0, _⟩ => show win2_0.index t (0 : Fin 2) * 512 + 1 * (y 0).val = 512 * t.val + (y 0).val; rw [e0]; omega
  | ⟨1, _⟩ => show win2_0.index t (1 : Fin 2) * 1024 + 1 * (y 1).val = (y 1).val; rw [e1]; omega

/-- The second window's one block is the whole weight matrix. -/
private theorem weight_block (c : Dev nD) (Wt : S1024x1024.Idx → EReal) (hw : V c main_v55 = Wt) (t : Fin cfg2.N) :
    iblk2 (F := Ideal) V c 1 t = Wt := by
  obtain ⟨-, -, e0, e1, -⟩ := block_indices t
  funext y
  unfold iblk2
  rw [View.read_apply]
  show V c main_v55 (((cfg2.win 1).blk t).view.emb y) = Wt y
  rw [hw]
  refine congrArg Wt (funext fun a => Fin.ext ?_)
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-- The third window's block at point `t` is block `t` of the residual rows. -/
private theorem resid_block (c : Dev nD) (Xf : S16384x1024.Idx → EReal) (hx : V c main_v56 = Xf) (t : Fin cfg2.N) :
    iblk2 (F := Ideal) V c 2 t = rowsBlk Xf (blockNo t) := by
  obtain ⟨-, -, -, -, e0, e1, -⟩ := block_indices t
  funext y
  unfold iblk2
  rw [View.read_apply]
  show V c main_v56 (((cfg2.win 2).blk t).view.emb y) = Xf (ix2 (rowOf (blockNo t) (y 0)) (y 1))
  rw [hx]
  refine congrArg Xf (funext fun a => Fin.ext ?_)
  match a with
  | ⟨0, _⟩ => show win2_2.index t (0 : Fin 2) * 512 + 1 * (y 0).val = 512 * t.val + (y 0).val; rw [e0]; omega
  | ⟨1, _⟩ => show win2_2.index t (1 : Fin 2) * 1024 + 1 * (y 1).val = (y 1).val; rw [e1]; omega

/-- What point `t` writes back is block `t` of `Out`, read through the result window's block. -/
private theorem written_block (c : Dev nD) (Of : S16384x1024.Idx → EReal) (Wt : S1024x1024.Idx → EReal)
    (Xf : S16384x1024.Idx → EReal) (Out : S16384x1024.Idx → EReal)
    (ho : V c main_v66 = Of) (hw : V c main_v55 = Wt) (hx : V c main_v56 = Xf)
    (hblock : ∀ t : Fin 32, k2_pay1 (F := Ideal) (rowsBlk Of t) Wt (rowsBlk Xf t) = rowsBlk Out t) (t : Fin cfg2.N) :
    (dat2 (F := Ideal) V c).flushed 3 t = ((cfg2.win 3).blk t).view.read (Elt Ideal) Out := by
  show (cfg2.win 3).cut (grid2.coords t) ((dat2 V c).after 3 t) = _
  rw [after2_3]
  unfold out2_3
  rw [View.canon_unit_zero zero_offsets]
  simp only [View.ld_unit_zero (S := S512x1024) zero_offsets, View.ld_unit_zero (S := S1024x1024) zero_offsets]
  rw [attn_block V c Of ho t, weight_block V c Wt hw t, resid_block V c Xf hx t, hblock (blockNo t)]
  obtain ⟨-, -, -, -, -, -, e0, e1⟩ := block_indices t
  funext y
  rw [View.read_apply]
  show Out (ix2 (rowOf (blockNo t) (y 0)) (y 1)) = Out (((cfg2.win 3).blk t).view.emb y)
  refine congrArg Out (funext fun a => Fin.ext ?_)
  match a with
  | ⟨0, _⟩ => show 512 * t.val + (y 0).val = win2_3.index t (0 : Fin 2) * 512 + 1 * (y 0).val; rw [e0]; omega
  | ⟨1, _⟩ => show (y 1).val = win2_3.index t (1 : Fin 2) * 1024 + 1 * (y 1).val; rw [e1]; omega

/-- An index of the result array is in point `t`'s block iff each coordinate is in the block's range on its axis. -/
private theorem mem_out_block (t : Fin cfg2.N) (i : S16384x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v67).slice (win2_3.rect t)).set ↔ _
  rw [View.set_slice_whole, Rect.mem_set_unit]
  exact Iff.rfl

theorem region2_array3 (c : Dev nD) (Of : S16384x1024.Idx → EReal) (Wt : S1024x1024.Idx → EReal) (Xf : S16384x1024.Idx → EReal)
    (Out : S16384x1024.Idx → EReal)
    (ho : V c main_v66 = Of) (hw : V c main_v55 = Wt) (hx : V c main_v56 = Xf)
    (hblock : ∀ t : Fin 32, k2_pay1 (F := Ideal) (rowsBlk Of t) Wt (rowsBlk Xf t) = rowsBlk Out t) :
    (dat2 (F := Ideal) V c).arrAt 3 cfg2.N = Out := by
  refine (dat2 (F := Ideal) V c).arrAt_eq_of_cover 3 Out
    (fun t _ => written_block V c Of Wt Xf Out ho hw hx hblock t) fun (i : S16384x1024.Idx) => ?_
  -- row `r` lies in the block of point `r / 512`
  have hi0 : (i 0).val < 16384 := (i 0).isLt
  have hi1 : (i 1).val < 1024 := (i 1).isLt
  have hN : cfg2.N = 32 := N_2
  obtain ⟨t, ht⟩ : ∃ t : Fin cfg2.N, t.val = (i 0).val / 512 := ⟨⟨(i 0).val / 512, by rw [hN]; omega⟩, rfl⟩
  obtain ⟨-, -, -, -, -, -, e0, e1⟩ := block_indices t
  refine ⟨t, flush2_3 t, ?_⟩
  rw [mem_out_block]
  intro a
  match a with
  | ⟨0, _⟩ =>
    show win2_3.index t (0 : Fin 2) * 512 ≤ (i 0).val ∧ (i 0).val < win2_3.index t (0 : Fin 2) * 512 + 512
    rw [e0, ht]; omega
  | ⟨1, _⟩ =>
    show win2_3.index t (1 : Fin 2) * 1024 ≤ (i 1).val ∧ (i 1).val < win2_3.index t (1 : Fin 2) * 1024 + 1024
    rw [e1]; omega

end Cert.Bridge

end
-- ==== Proof.ProjMath.lean ====
/-
  The projection launches, one block of rows: the first launch's three stores and the third launch's store, each as
  the same block of the reference's whole-array term. At the ideal instance a `tpu.matmul` into a zero accumulator and
  the host's `dot_general` are the same sum over the contracted axis; a row of the flattened [16384, 1024] array is a
  (batch, position) row of the [4, 4096, 1024] array; and the kernel's closing product with the named reciprocal is the
  reference's quotient by the constant it is the reciprocal of.
-/
import proofs.«102114_j26654567039403_1_alg».proof.Proof.Gen.KernelIdeal.Skeleton
import proofs.«102114_j26654567039403_1_alg».proof.Proof.Gen.ReferenceIdeal.Read
import proofs.«102114_j26654567039403_1_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal Cert.KernelIdeal.Gen

/-- The reference's projection record: contract axis 2 of a [4, 4096, 1024] array with axis 1 of a [1024, 1024] one. -/
abbrev refDot := Cert.ReferenceIdeal.dot_S4x4096x1024_S1024x1024_S4x4096x1024_2_1_01_0_n_n

/-- A [4, 4096, 1024] array with its two leading axes merged, as the kernel's host code reshapes it. -/
def flat (Y : S4x4096x1024.Idx → EReal) : S16384x1024.Idx → EReal :=
  shapeCast S16384x1024 Y shapeCasts_S4x4096x1024_S16384x1024

/-- The reference's projection of a [4, 4096, 1024] array by a [1024, 1024] weight matrix (both read as f32 arrays). -/
def projRef (X : S4x4096x1024.Idx → EReal) (W : S1024x1024.Idx → EReal) : S4x4096x1024.Idx → EReal :=
  Host.dotGeneral (F := Ideal) (φ₁ := .f32) (φ₂ := .f32) refDot none X W

/-- The reference's closing combination of the residual input `X` with a projected array `L`:
    `(X · ½ + L · ½) / d` with the reference's own constants. -/
def combineRef (X L : S4x4096x1024.Idx → EReal) : S4x4096x1024.Idx → EReal :=
  Host.divf (F := Ideal) (φ := .f32) (addf (F := Ideal) (φ := .f32) (mulf (F := Ideal) (φ := .f32) X (Cert.ReferenceIdeal.Read.val_main_v99 (F := Ideal)))
    (mulf (F := Ideal) (φ := .f32) L (Cert.ReferenceIdeal.Read.val_main_v101 (F := Ideal)))) (Cert.ReferenceIdeal.Read.val_main_v104 (F := Ideal))

/-! ## The kernel's product: one row of the left operand against one row of the right -/

/-- The left operand's index keeps the output's row … -/
theorem lhs_kdot_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and takes the contracted position as its column. -/
theorem lhs_kdot_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's index takes the output's column as its row … -/
theorem rhs_kdot_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and the contracted position as its column. -/
theorem rhs_kdot_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The kernel's matmul into a zero accumulator, at row `r` and column `o`: the sum over `k` of the left operand's
    row `r` times the right operand's row `o`. -/
theorem kmatmul_apply (x : S512x1024.Idx → EReal) (w : S1024x1024.Idx → EReal) (r : Fin 512) (o : Fin 1024) :
    FloatOps.matmul (F := Ideal) (φ₁ := .bf16) (φ₂ := .bf16) dot_S512x1024_S1024x1024_S512x1024_1_1_0_0_n_n none x w
        (constant (F := Ideal) S512x1024 .f32 0x00000000#32) (ix2 r o)
      = ∑ k : Fin 1024, x (ix2 r k) * w (ix2 o k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r o) ((ValueIdx.contrEquiv1 dot_S512x1024_S1024x1024_S512x1024_1_1_0_0_n_n 1024 rfl rfl).symm k) = ix2 r k := funext fun a => Fin.ext (by
    match a with
    | ⟨0, _⟩ => exact lhs_kdot_0 _ _
    | ⟨1, _⟩ => exact (lhs_kdot_1 _ _).trans hk)
  have er : dot_S512x1024_S1024x1024_S512x1024_1_1_0_0_n_n.rhsIdx (ix2 r o) ((ValueIdx.contrEquiv1 dot_S512x1024_S1024x1024_S512x1024_1_1_0_0_n_n 1024 rfl rfl).symm k) = ix2 o k := funext fun a => Fin.ext (by
    match a with
    | ⟨0, _⟩ => exact rhs_kdot_0 _ _
    | ⟨1, _⟩ => exact (rhs_kdot_1 _ _).trans hk)
  rw [el, er]

/-! ## Rows of the flattened array -/

/-- The batch of flat row `512 t + r`. -/
def batchOf (t : Fin 32) (r : Fin 512) : Fin 4 :=
  ⟨(512 * t.val + r.val) / 4096, by have := t.isLt; have := r.isLt; omega⟩

/-- The position of flat row `512 t + r` inside its batch. -/
def posOf (t : Fin 32) (r : Fin 512) : Fin 4096 :=
  ⟨(512 * t.val + r.val) % 4096, by have := t.isLt; have := r.isLt; omega⟩

/-- Row `r` of block `t` of the flattened array is the (batch, position) row of the [4, 4096, 1024] array. -/
theorem flat_rows (Y : S4x4096x1024.Idx → EReal) (t : Fin 32) (r : Fin 512) (k : Fin 1024) :
    rowsBlk (flat Y) t (ix2 r k) = Y (ix3 (batchOf t r) (posOf t r) k) := by
  rw [rowsBlk_apply]
  unfold flat
  refine shapeCast_apply Y shapeCasts_S4x4096x1024_S16384x1024 _ (ix3 (batchOf t r) (posOf t r) k) ?_
  rewrite [Shape.rowMajor_val_three, Shape.rowMajor_val_two]
  have ht := t.isLt
  have hr := r.isLt
  show ((512 * t.val + r.val) / 4096 * 4096 + (512 * t.val + r.val) % 4096) * 1024 + k.val = (512 * t.val + r.val) * 1024 + k.val
  omega

/-! ## The reference's projection at an index -/

/-- The reference's projection at (batch `b`, position `p`, feature `o`): the sum over `k` of the input's row times
    the weight matrix's row `o`. -/
theorem projRef_apply (X : S4x4096x1024.Idx → EReal) (W : S1024x1024.Idx → EReal) (b : Fin 4) (p : Fin 4096) (o : Fin 1024) :
    projRef X W (ix3 b p o) = ∑ k : Fin 1024, X (ix3 b p k) * W (ix2 o k) := by
  simp only [projRef, Host.dotGeneral]
  rw [Ideal.dotGeneral_apply, ← Equiv.sum_comp (ValueIdx.contrEquiv1 Cert.ReferenceIdeal.dot_S4x4096x1024_S1024x1024_S4x4096x1024_2_1_01_0_n_n 1024 rfl rfl).symm]
  refine Finset.sum_congr rfl fun k _ => ?_
  have hk := ValueIdx.contrEquiv1_symm_val Cert.ReferenceIdeal.dot_S4x4096x1024_S1024x1024_S4x4096x1024_2_1_01_0_n_n 1024 rfl rfl k
  have el : Cert.ReferenceIdeal.dot_S4x4096x1024_S1024x1024_S4x4096x1024_2_1_01_0_n_n.lhsIdx (ix3 b p o) ((ValueIdx.contrEquiv1 Cert.ReferenceIdeal.dot_S4x4096x1024_S1024x1024_S4x4096x1024_2_1_01_0_n_n 1024 rfl rfl).symm k) = ix3 b p k := funext fun a => Fin.ext (by
    match a with
    | ⟨0, _⟩ => exact Cert.ReferenceIdeal.Read.lhs_main_v13_0 _ _
    | ⟨1, _⟩ => exact Cert.ReferenceIdeal.Read.lhs_main_v13_1 _ _
    | ⟨2, _⟩ => exact (Cert.ReferenceIdeal.Read.lhs_main_v13_2 _ _).trans hk)
  have er : Cert.ReferenceIdeal.dot_S4x4096x1024_S1024x1024_S4x4096x1024_2_1_01_0_n_n.rhsIdx (ix3 b p o) ((ValueIdx.contrEquiv1 Cert.ReferenceIdeal.dot_S4x4096x1024_S1024x1024_S4x4096x1024_2_1_01_0_n_n 1024 rfl rfl).symm k) = ix2 o k := funext fun a => Fin.ext (by
    match a with
    | ⟨0, _⟩ => exact Cert.ReferenceIdeal.Read.rhs_main_v13_0 _ _
    | ⟨1, _⟩ => exact (Cert.ReferenceIdeal.Read.rhs_main_v13_1 _ _).trans hk)
  rw [el, er]

/-- A block of rows of the reference's projection, at row `r` and feature `o`. -/
theorem projRef_rows (X : S4x4096x1024.Idx → EReal) (W : S1024x1024.Idx → EReal) (t : Fin 32) (r : Fin 512) (o : Fin 1024) :
    rowsBlk (flat (projRef X W)) t (ix2 r o) = ∑ k : Fin 1024, rowsBlk (flat X) t (ix2 r k) * W (ix2 o k) := by
  rw [flat_rows, projRef_apply]
  refine Finset.sum_congr rfl fun k _ => ?_
  rw [flat_rows]

/-! ## The first launch's three stores -/

theorem proj_block2 (X : S4x4096x1024.Idx → EReal) (W : S1024x1024.Idx → EReal) (t : Fin 32) :
    k0_pay2 (F := Ideal) (rowsBlk (flat X) t) W = rowsBlk (flat (projRef X W)) t := by
  funext y
  obtain ⟨r, o, rfl⟩ : ∃ (r : Fin 512) (o : Fin 1024), y = ix2 r o := ⟨y 0, y 1, eq_ix2 y⟩
  rw [projRef_rows]
  unfold k0_pay2 k0_pay1
  simp only [shapeCast_self]
  exact kmatmul_apply _ _ r o

theorem proj_block3 (X : S4x4096x1024.Idx → EReal) (W : S1024x1024.Idx → EReal) (t : Fin 32) :
    k0_pay3 (F := Ideal) (rowsBlk (flat X) t) W = rowsBlk (flat (projRef X W)) t := by
  funext y
  obtain ⟨r, o, rfl⟩ : ∃ (r : Fin 512) (o : Fin 1024), y = ix2 r o := ⟨y 0, y 1, eq_ix2 y⟩
  rw [projRef_rows]
  unfold k0_pay3 k0_pay1
  simp only [shapeCast_self]
  exact kmatmul_apply _ _ r o

theorem proj_block4 (X : S4x4096x1024.Idx → EReal) (W : S1024x1024.Idx → EReal) (t : Fin 32) :
    k0_pay4 (F := Ideal) (rowsBlk (flat X) t) W = rowsBlk (flat (projRef X W)) t := by
  funext y
  obtain ⟨r, o, rfl⟩ : ∃ (r : Fin 512) (o : Fin 1024), y = ix2 r o := ⟨y 0, y 1, eq_ix2 y⟩
  rw [projRef_rows]
  unfold k0_pay4 k0_pay1
  simp only [shapeCast_self]
  exact kmatmul_apply _ _ r o

/-! ## The third launch's store: the closing combination -/

/-- The reference's divisor word denotes the real 11863283 / 16777216 (exponent −1, mantissa 3474675 / 2²³). -/
theorem ofBits_divisor : Ideal.ofBits .f32 0x3F3504F3#32 = ((11863283 / 16777216 : ℝ) : EReal) := by
  simp [Ideal.ofBits, Ideal.ieee, -EReal.coe_mul]; norm_num

/-- The kernel's named reciprocal denotes the rational 16777216 / 11863283. -/
theorem recip_norm : Named.named (F := Ideal) Cert.KernelIdeal.κ "recip_combine_norm" (φ := .f32) 0x3FB504F3#32
    = ((16777216 / 11863283 : ℝ) : EReal) :=
  IdealRules.named_const.ideal_named_scalar _ _ _ _ rfl

/-- On every extended real the quotient by the reference's divisor is the product with the kernel's reciprocal. -/
theorem div_divisor (x : EReal) :
    Ideal.div x (Ideal.ofBits .f32 0x3F3504F3#32)
      = x * Named.named (F := Ideal) Cert.KernelIdeal.κ "recip_combine_norm" (φ := .f32) 0x3FB504F3#32 := by
  rw [ofBits_divisor, recip_norm, Ideal.div_coe (by norm_num : (11863283 / 16777216 : ℝ) ≠ 0)]
  norm_num

/-- The reference's combination at an index. -/
theorem combineRef_apply (X L : S4x4096x1024.Idx → EReal) (i : S4x4096x1024.Idx) :
    combineRef X L i = Ideal.div (X i * Ideal.ofBits .f32 0x3F000000#32 + L i * Ideal.ofBits .f32 0x3F000000#32)
      (Ideal.ofBits .f32 0x3F3504F3#32) := by
  show Ideal.div (X i * Cert.ReferenceIdeal.Read.val_main_v99 (F := Ideal) i + L i * Cert.ReferenceIdeal.Read.val_main_v101 (F := Ideal) i)
    (Cert.ReferenceIdeal.Read.val_main_v104 (F := Ideal) i) = _
  rw [Cert.ReferenceIdeal.Read.val_main_v99_apply, Cert.ReferenceIdeal.Read.val_main_v101_apply, Cert.ReferenceIdeal.Read.val_main_v104_apply]
  rfl

theorem combine_block (O X : S4x4096x1024.Idx → EReal) (W : S1024x1024.Idx → EReal) (t : Fin 32) :
    k2_pay1 (F := Ideal) (rowsBlk (flat O) t) W (rowsBlk (flat X) t)
      = rowsBlk (flat (combineRef X (projRef O W))) t := by
  funext y
  obtain ⟨r, o, rfl⟩ : ∃ (r : Fin 512) (o : Fin 1024), y = ix2 r o := ⟨y 0, y 1, eq_ix2 y⟩
  rw [flat_rows, combineRef_apply, div_divisor, ← flat_rows X, ← flat_rows (projRef O W), projRef_rows]
  unfold k2_pay1
  simp only [shapeCast_self]
  rw [← kmatmul_apply (rowsBlk (flat O) t) W r o]
  rfl

end Cert.Bridge

end
-- ==== Proof.AttnScores.lean ====
/-
  The attention launch, one (batch, head) slab: the 64 x 64 score matrix the body forms from the normalised query and
  key slabs, and its row maxima, are the reference's score array and its row maxima read at that batch and head.
-/
import proofs.«102114_j26654567039403_1_alg».proof.Proof.Gen.KernelIdeal.Skeleton
import proofs.«102114_j26654567039403_1_alg».proof.Proof.Gen.ReferenceIdeal.Read
import proofs.«102114_j26654567039403_1_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal Cert.KernelIdeal.Gen

variable (x0 : S4x4096x1024.Idx → EReal) (x1 : S_.Idx → EReal) (x2 x3 x4 : S1024x1024.Idx → EReal)

/-! ## Three layout readings: a vector as a column, a column spread over the lanes, a block's two unit axes dropped -/

section Layout
variable {α : Type}

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column at `i`. -/
private theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, 1, a, b]` block cast to `[a, b]` reads, at `(i, j)`, the block at `(0, 0, i, j)`. -/
private theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

end Layout

/-! ## The row normalisation: x / (ε + ‖x‖ / 8) along the 64 lanes -/

/-- A row's entry at lane `h` over ε + (the row's Euclidean length) / 8. -/
private def rowNorm (r : Fin 64 → EReal) (h : Fin 64) : EReal :=
  Ideal.div (r h) (Ideal.ofBits .f32 0x38D1B717#32
    + Ideal.div (Ideal.sqrt (∑ k : Fin 64, r k * r k)) (Ideal.ofBits .f32 0x41000000#32))

/-- The body's row normalisation of a [4096, 64] array: every row divided by ε + (its Euclidean length) / 8. -/
private def kNorm (X : FVec Ideal S4096x64 .f32) : FVec Ideal S4096x64 .f32 :=
  divf X (broadcastTo S4096x64
    (addf (broadcast S4096x1 (Scalar.ofBits (F := Ideal) .f32 0x38D1B717#32))
      (divf (sqrt (shapeCast S4096x1
          (multiReduction .add [1] S4096 (mulf X X) 0x00000000#32 reduces_S4096x64_S4096 (.inl rfl) rfl) shapeCasts_S4096_S4096x1))
        (broadcast S4096x1 (Scalar.ofBits (F := Ideal) .f32 0x41000000#32))))
    broadcasts_S4096x1_S4096x64)

/-- The lane sum of a [4096, 64] array at row `s` is the sum over the 64 lanes. -/
private theorem laneSum_apply (Y : FVec Ideal S4096x64 .f32) (hr : S4096x64.Reduces [1] S4096) (hφ : FKind.Formats FTy.f32)
    (hacc : (0x00000000#32 : BitVec 32) = 0x00000000#32) (s : Fin 4096) :
    multiReduction .add [1] S4096 Y 0x00000000#32 hr hφ hacc (ix1 s) = ∑ k : Fin 64, Y (ix2 s k) := by
  refine (Ideal.multiReduction_add_single Y 0x00000000#32 hr hφ hacc (ix1 s)).trans ?_
  refine Finset.sum_congr rfl fun k _ => congrArg Y ?_
  funext c
  match c with
  | ⟨0, _⟩ => rfl
  | ⟨1, _⟩ => rfl

/-- The normalised array at (s, h) is row `s`'s normalised entry at lane `h`. -/
private theorem kNorm_apply (X : FVec Ideal S4096x64 .f32) (s : Fin 4096) (h : Fin 64) :
    kNorm X (ix2 s h) = rowNorm (fun k => X (ix2 s k)) h := by
  unfold kNorm rowNorm
  rw [divf_apply, broadcastTo_a1_ab_apply, addf_apply, divf_apply]
  show Ideal.div (X (ix2 s h)) (Ideal.ofBits .f32 0x38D1B717#32 + Ideal.div (Ideal.sqrt (shapeCast S4096x1 _ shapeCasts_S4096_S4096x1 (ix2 s (0 : Fin 1)))) (Ideal.ofBits .f32 0x41000000#32)) = _
  rw [shapeCast_a_a1_apply]
  refine congrArg (fun t => Ideal.div (X (ix2 s h)) (Ideal.ofBits .f32 0x38D1B717#32
    + Ideal.div (Ideal.sqrt t) (Ideal.ofBits .f32 0x41000000#32))) ?_
  exact laneSum_apply (mulf X X) _ _ _ s

/-! ## The contraction over the 4096 positions -/

section Contraction

/-- The left operand's index at an output index and a contraction position: axis 0 carries the position, -/
private theorem lhs_scores_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
/-- … and axis 1 the output's row coordinate. -/
private theorem lhs_scores_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
/-- The right operand's index likewise: axis 0 carries the position, -/
private theorem rhs_scores_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
/-- … and axis 1 the output's column coordinate. -/
private theorem rhs_scores_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- Two [4096, 64] arrays contracted over their 4096 rows into a zero accumulator: at (p, q) the sum over the rows
    of the left array's column p times the right array's column q. -/
private theorem scoresDot_apply (L R : FVec Ideal S4096x64 .bf16) (p q : Fin 64) :
    matmul dot_S4096x64_S4096x64_S64x64_0_0_1_1_n_n none L R (constant (F := Ideal) S64x64 .f32 0x00000000#32) (ix2 p q)
      = ∑ k : Fin 4096, L (ix2 k p) * R (ix2 k q) := by
  refine (Ideal.matmul_constant_zero_apply dot_S4096x64_S4096x64_S64x64_0_0_1_1_n_n none L R (ix2 p q)).trans ?_
  rw [← Equiv.sum_comp (ValueIdx.contrEquiv1 dot_S4096x64_S4096x64_S64x64_0_0_1_1_n_n 4096 rfl rfl).symm]
  refine Finset.sum_congr rfl fun k _ => ?_
  have hk := ValueIdx.contrEquiv1_symm_val dot_S4096x64_S4096x64_S64x64_0_0_1_1_n_n 4096 rfl rfl k
  have el : dot_S4096x64_S4096x64_S64x64_0_0_1_1_n_n.lhsIdx (ix2 p q) ((ValueIdx.contrEquiv1 dot_S4096x64_S4096x64_S64x64_0_0_1_1_n_n 4096 rfl rfl).symm k) = ix2 k p := funext fun a => Fin.ext (by
    match a with
    | ⟨0, _⟩ => exact (lhs_scores_0 _ _).trans hk
    | ⟨1, _⟩ => exact lhs_scores_1 _ _)
  have er : dot_S4096x64_S4096x64_S64x64_0_0_1_1_n_n.rhsIdx (ix2 p q) ((ValueIdx.contrEquiv1 dot_S4096x64_S4096x64_S64x64_0_0_1_1_n_n 4096 rfl rfl).symm k) = ix2 k q := funext fun a => Fin.ext (by
    match a with
    | ⟨0, _⟩ => exact (rhs_scores_0 _ _).trans hk
    | ⟨1, _⟩ => exact rhs_scores_1 _ _)
  rw [el, er]

end Contraction

/-! ## The score payload at an index -/

section Payload

/-- The score payload is the contraction of the normalised queries with the normalised keys over 64. -/
private theorem k1_pay3_eq (xq xk : Vec Ideal S1x1x4096x64 .bf16) :
    k1_pay3 (F := Ideal) xq xk
      = matmul dot_S4096x64_S4096x64_S64x64_0_0_1_1_n_n none
          (truncf .bf16 (kNorm (extf .f32 (shapeCast S4096x64 xq shapeCasts_S1x1x4096x64_S4096x64) bitsLt_bf16_f32)) bitsLt_bf16_f32)
          (truncf .bf16 (divf (kNorm (extf .f32 (shapeCast S4096x64 xk shapeCasts_S1x1x4096x64_S4096x64) bitsLt_bf16_f32))
            (broadcast S4096x64 (Scalar.ofBits (F := Ideal) .f32 0x42800000#32))) bitsLt_bf16_f32)
          (constant (F := Ideal) S64x64 .f32 0x00000000#32) := rfl

/-- A [1, 1, 4096, 64] block with its unit axes dropped and widened reads, at (s, h), the block at (0, 0, s, h). -/
private theorem dropWiden_apply (x : Vec Ideal S1x1x4096x64 .bf16) (s : Fin 4096) (h : Fin 64) :
    (extf (F := Ideal) .f32 (shapeCast S4096x64 x shapeCasts_S1x1x4096x64_S4096x64 : FVec Ideal S4096x64 .bf16)
        bitsLt_bf16_f32 : FVec Ideal S4096x64 .f32) (ix2 s h)
      = x (ix4 (0 : Fin 1) (0 : Fin 1) s h) :=
  shapeCast_11ab_ab_apply x shapeCasts_S1x1x4096x64_S4096x64 s h

/-- The score payload at (p, q): the sum over the 4096 positions of the normalised query lane p times the
    normalised key lane q over 64. -/
private theorem k1_pay3_apply (xq xk : Vec Ideal S1x1x4096x64 .bf16) (p q : Fin 64) :
    k1_pay3 (F := Ideal) xq xk (ix2 p q)
      = ∑ k : Fin 4096, rowNorm (fun h => xq (ix4 (0 : Fin 1) (0 : Fin 1) k h)) p
          * Ideal.div (rowNorm (fun h => xk (ix4 (0 : Fin 1) (0 : Fin 1) k h)) q) (Ideal.ofBits .f32 0x42800000#32) := by
  rw [k1_pay3_eq]
  refine (scoresDot_apply _ _ p q).trans ?_
  refine Finset.sum_congr rfl fun k _ => ?_
  rw [truncf_apply, truncf_apply, divf_apply, kNorm_apply, kNorm_apply, broadcast_apply]
  simp only [dropWiden_apply]
  rfl

end Payload

/-! ## Row maxima -/

/-- The row maxima of a [64, 64] array taken from −∞: at row `p` the fold of `max` over the 64 lanes. -/
private theorem rowMax_apply (Y : FVec Ideal S64x64 .f32) (hr : S64x64.Reduces [1] S64) (hφ : FKind.Formats FTy.f32)
    (hacc : (0xFF800000#32 : BitVec 32) = 0xFF800000#32) (p : Fin 64) :
    multiReduction .maximumf [1] S64 Y 0xFF800000#32 hr hφ hacc (ix1 p)
      = (Finset.univ : Finset (Fin 64)).fold max (Ideal.ofBits .f32 0xFF800000#32) (fun k => Y (ix2 p k)) := by
  refine (Ideal.multiReduction_maximumf_single Y 0xFF800000#32 hr hφ hacc (ix1 p)).trans ?_
  refine congrArg (fun f => Finset.fold max (Ideal.ofBits .f32 0xFF800000#32) f (Finset.univ : Finset (Fin 64))) ?_
  funext k
  refine congrArg Y ?_
  funext c
  match c with
  | ⟨0, _⟩ => rfl
  | ⟨1, _⟩ => rfl

/-! ## The reference's normalised queries and keys at an index -/

section Reference
open Cert.ReferenceIdeal.Read

/-- The reference's normalised queries at (b, n, s, h): the query there over ε + (the row's length) / 8. -/
private theorem refQ_apply (b : Fin 4) (n : Fin 16) (s : Fin 4096) (h : Fin 64) :
    val_main_v57 (F := Ideal) x0 x1 x2 (ix4 b n s h)
      = rowNorm (fun k => val_main_v15 (F := Ideal) x0 x1 x2 (ix4 b n s k)) h := by
  unfold rowNorm
  have e : ∀ k : Fin 64, idx_main_v49 (idx_main_v50 (idx_main_v56 (ix4 b n s h))) k = ix4 b n s k := fun k =>
    funext fun a => Fin.ext (by match a with | ⟨0, _⟩ => rfl | ⟨1, _⟩ => rfl | ⟨2, _⟩ => rfl | ⟨3, _⟩ => rfl)
  rw [val_main_v57_apply, val_main_v56_apply, val_main_v55_apply, val_main_v54_apply, val_main_cst_13_apply,
    val_main_v53_apply, val_main_v52_apply, val_main_cst_12_apply, val_main_v51_apply, val_main_v50_apply,
    val_main_v49_apply, val_main_cst_11_apply]
  simp only [val_main_v48_apply, e, Ideal.hostDivf_def, Ideal.hostUnary_sqrt_def, Ideal.addf_def, Ideal.mulf_def,
    Ideal.ofBits_def, Ideal.ofBits_zero_f32, zero_add]

/-- The reference's normalised and scaled keys at (b, n, s, h): the key there over ε + (the row's length) / 8, over 64. -/
private theorem refK_apply (b : Fin 4) (n : Fin 16) (s : Fin 4096) (h : Fin 64) :
    val_main_v69 (F := Ideal) x0 x1 x3 (ix4 b n s h)
      = Ideal.div (rowNorm (fun k => val_main_v31 (F := Ideal) x0 x1 x3 (ix4 b n s k)) h)
          (Ideal.ofBits .f32 0x42800000#32) := by
  unfold rowNorm
  have e : ∀ k : Fin 64, idx_main_v59 (idx_main_v60 (idx_main_v66 (ix4 b n s h))) k = ix4 b n s k := fun k =>
    funext fun a => Fin.ext (by match a with | ⟨0, _⟩ => rfl | ⟨1, _⟩ => rfl | ⟨2, _⟩ => rfl | ⟨3, _⟩ => rfl)
  rw [val_main_v69_apply, val_main_v68_apply, val_main_cst_17_apply, val_main_v67_apply, val_main_v66_apply,
    val_main_v65_apply, val_main_v64_apply, val_main_cst_16_apply,
    val_main_v63_apply, val_main_v62_apply, val_main_cst_15_apply, val_main_v61_apply, val_main_v60_apply,
    val_main_v59_apply, val_main_cst_14_apply]
  simp only [val_main_v58_apply, e, Ideal.hostDivf_def, Ideal.hostUnary_sqrt_def, Ideal.addf_def, Ideal.mulf_def,
    Ideal.ofBits_def, Ideal.ofBits_zero_f32, zero_add]

end Reference

/-! ## The two blocks -/

section Blocks
open Cert.ReferenceIdeal.Read

theorem scores_block (b : Fin 4) (n : Fin 16) (j : S64x64.Idx) :
    k1_pay3 (F := Ideal) (slab (Cert.ReferenceIdeal.Read.val_main_v15 (F := Ideal) x0 x1 x2) b n)
        (slab (Cert.ReferenceIdeal.Read.val_main_v31 (F := Ideal) x0 x1 x3) b n) j
      = Cert.ReferenceIdeal.Read.val_main_v70 (F := Ideal) x0 x1 x2 x3 (ix4 b n (j 0) (j 1)) := by
  obtain ⟨p, q, rfl⟩ : ∃ (p : Fin 64) (q : Fin 64), j = ix2 p q := ⟨j 0, j 1, eq_ix2 j⟩
  have el : ∀ k : Fin 4096, lidx_main_v70 (ix4 b n p q) k = ix4 b n k p := fun k =>
    funext fun a => Fin.ext (by match a with | ⟨0, _⟩ => rfl | ⟨1, _⟩ => rfl | ⟨2, _⟩ => rfl | ⟨3, _⟩ => rfl)
  have er : ∀ k : Fin 4096, ridx_main_v70 (ix4 b n p q) k = ix4 b n k q := fun k =>
    funext fun a => Fin.ext (by match a with | ⟨0, _⟩ => rfl | ⟨1, _⟩ => rfl | ⟨2, _⟩ => rfl | ⟨3, _⟩ => rfl)
  show k1_pay3 (F := Ideal) (slab (val_main_v15 (F := Ideal) x0 x1 x2) b n) (slab (val_main_v31 (F := Ideal) x0 x1 x3) b n) (ix2 p q)
    = val_main_v70 (F := Ideal) x0 x1 x2 x3 (ix4 b n p q)
  rw [k1_pay3_apply, val_main_v70_apply]
  refine Finset.sum_congr rfl fun k _ => ?_
  rw [el, er, refQ_apply, refK_apply]
  rfl

/-- The reference's row maxima of the scores at (b, n, p): the fold of `max` from −∞ over the last axis. -/
private theorem refRowMax_apply (b : Fin 4) (n : Fin 16) (p : Fin 64) :
    val_main_v71 (F := Ideal) x0 x1 x2 x3 (ix3 b n p)
      = (Finset.univ : Finset (Fin 64)).fold max (Ideal.ofBits .f32 0xFF800000#32)
          (fun k => val_main_v70 (F := Ideal) x0 x1 x2 x3 (ix4 b n p k)) := by
  unfold val_main_v71
  generalize val_main_v70 (F := Ideal) x0 x1 x2 x3 = y
  refine (Host.reduce_eq_fold_single (FloatOps.maximumf (F := Ideal) (φ := .f32)) y _ _ (by decide) _ (ix3 b n p)).trans ?_
  refine congrArg (fun f => Finset.fold max (Ideal.ofBits .f32 0xFF800000#32) f (Finset.univ : Finset (Fin 64))) ?_
  funext k
  refine congrArg y ?_
  funext c
  match c with
  | ⟨0, _⟩ => rfl
  | ⟨1, _⟩ => rfl
  | ⟨2, _⟩ => rfl
  | ⟨3, _⟩ => rfl

theorem rowmax_block (b : Fin 4) (n : Fin 16) (j : S64.Idx) :
    k1_pay4 (F := Ideal) (slab (Cert.ReferenceIdeal.Read.val_main_v15 (F := Ideal) x0 x1 x2) b n)
        (slab (Cert.ReferenceIdeal.Read.val_main_v31 (F := Ideal) x0 x1 x3) b n) j
      = Cert.ReferenceIdeal.Read.val_main_v71 (F := Ideal) x0 x1 x2 x3 (ix3 b n (j 0)) := by
  obtain ⟨p, rfl⟩ : ∃ p : Fin 64, j = ix1 p := ⟨j 0, eq_ix1 j⟩
  show k1_pay4 (F := Ideal) (slab (val_main_v15 (F := Ideal) x0 x1 x2) b n) (slab (val_main_v31 (F := Ideal) x0 x1 x3) b n) (ix1 p)
    = val_main_v71 (F := Ideal) x0 x1 x2 x3 (ix3 b n p)
  rw [refRowMax_apply]
  unfold k1_pay4
  refine (rowMax_apply _ _ _ _ p).trans ?_
  refine congrArg (fun f => Finset.fold max (Ideal.ofBits .f32 0xFF800000#32) f (Finset.univ : Finset (Fin 64))) ?_
  funext k
  exact scores_block x0 x1 x2 x3 b n (ix2 p k)

end Blocks

end Cert.Bridge

end
-- ==== Proof.AttnOut.lean ====
/-
  The attention launch, one (batch, head) slab: from the value slab, the score matrix and its row maxima the body forms
  the softmax over each score row and multiplies the value slab by it; that is the reference's attention output read
  at that batch and head.
-/
import proofs.«102114_j26654567039403_1_alg».proof.Proof.Gen.KernelIdeal.Skeleton
import proofs.«102114_j26654567039403_1_alg».proof.Proof.Gen.ReferenceIdeal.Read
import proofs.«102114_j26654567039403_1_alg».proof.Proof.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal Cert.KernelIdeal.Gen

variable (x0 : S4x4096x1024.Idx → EReal) (x1 : S_.Idx → EReal) (x2 x3 x4 : S1024x1024.Idx → EReal)

/-! ## Auxiliary facts: layout changes at small shapes, the row sum, the product, and the softmax weights entry by entry -/

namespace AttnOut

open Cert.ReferenceIdeal.Read

section Layout
variable {α : Type}

/-- A [1, 1, a, b] array cast to [a, b] reads, at (i, j), the operand at (0, 0, i, j). -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, w, i, j), the operand at (i, j). -/
theorem cast_ab_11ab {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- An [a] array cast to a column [a, 1] reads, at (i, u), the operand at i. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a [64, 64] block at row p is the sum of that row. -/
theorem rowsum_apply (src : FVec Ideal S64x64 .f32) (hφ : FKind.Formats FTy.f32)
    (hacc : (0x00000000#32 : BitVec 32) = 0x00000000#32) (p : Fin 64) :
    multiReduction (F := Ideal) .add [1] S64 src 0x00000000#32 reduces_S64x64_S64 hφ hacc (ix1 p) = ∑ k : Fin 64, src (ix2 p k) := by
  refine (Ideal.multiReduction_add_single src 0x00000000#32 reduces_S64x64_S64 hφ hacc (ix1 p)).trans ?_
  refine Finset.sum_congr rfl fun k _ => ?_
  exact congrArg src (funext fun a => Fin.ext (by match a with | ⟨0, _⟩ => rfl | ⟨1, _⟩ => rfl))

/-- The product's left operand index at output index i and contraction index q: its row is the output's row … -/
theorem av_lhs_0 (i : S4096x64.Idx) (q : dot_S4096x64_S64x64_S4096x64_1_1_0_0_n_n.contr.Idx) :
    (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
/-- … and its column is the contraction index. -/
theorem av_lhs_1 (i : S4096x64.Idx) (q : dot_S4096x64_S64x64_S4096x64_1_1_0_0_n_n.contr.Idx) :
    (dot_S4096x64_S64x64_S4096x64_1_1_0_0_n_n.lhsIdx i q 1).val = (q ⟨0, by decide⟩).val :=
  dot_S4096x64_S64x64_S4096x64_1_1_0_0_n_n.lhsIdx_val_of_single rfl i q
/-- The right operand's index: its row is the output's column … -/
theorem av_rhs_0 (i : S4096x64.Idx) (q : dot_S4096x64_S64x64_S4096x64_1_1_0_0_n_n.contr.Idx) :
    (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
/-- … and its column is the contraction index. -/
theorem av_rhs_1 (i : S4096x64.Idx) (q : dot_S4096x64_S64x64_S4096x64_1_1_0_0_n_n.contr.Idx) :
    (dot_S4096x64_S64x64_S4096x64_1_1_0_0_n_n.rhsIdx i q 1).val = (q ⟨0, by decide⟩).val :=
  dot_S4096x64_S64x64_S4096x64_1_1_0_0_n_n.rhsIdx_val_of_single rfl i q

/-- The product of the value slab with the transposed weight matrix into the zero accumulator, at (s, h):
    the sum over k of lhs (s, k) · rhs (h, k). -/
theorem av_apply (lhs : FVec Ideal S4096x64 .bf16) (rhs : FVec Ideal S64x64 .bf16) (s : Fin 4096) (h : Fin 64) :
    FloatOps.matmul dot_S4096x64_S64x64_S4096x64_1_1_0_0_n_n none lhs rhs (constant (F := Ideal) S4096x64 .f32 0x00000000#32) (ix2 s h)
      = ∑ k : Fin 64, lhs (ix2 s k) * rhs (ix2 h k) := by
  rw [Ideal.matmul_constant_zero_apply, ← Equiv.sum_comp (ValueIdx.contrEquiv1 dot_S4096x64_S64x64_S4096x64_1_1_0_0_n_n 64 rfl rfl).symm]
  refine Finset.sum_congr rfl fun k _ => ?_
  have hk := ValueIdx.contrEquiv1_symm_val dot_S4096x64_S64x64_S4096x64_1_1_0_0_n_n 64 rfl rfl k
  have el : dot_S4096x64_S64x64_S4096x64_1_1_0_0_n_n.lhsIdx (ix2 s h) ((ValueIdx.contrEquiv1 dot_S4096x64_S64x64_S4096x64_1_1_0_0_n_n 64 rfl rfl).symm k) = ix2 s k := funext fun a => Fin.ext (by
    match a with
    | ⟨0, _⟩ => exact av_lhs_0 _ _
    | ⟨1, _⟩ => exact (av_lhs_1 _ _).trans hk)
  have er : dot_S4096x64_S64x64_S4096x64_1_1_0_0_n_n.rhsIdx (ix2 s h) ((ValueIdx.contrEquiv1 dot_S4096x64_S64x64_S4096x64_1_1_0_0_n_n 64 rfl rfl).symm k) = ix2 h k := funext fun a => Fin.ext (by
    match a with
    | ⟨0, _⟩ => exact av_rhs_0 _ _
    | ⟨1, _⟩ => exact (av_rhs_1 _ _).trans hk)
  rw [el, er]

/-- The kernel's clamped row maximum, spread over the row: at (h, k) it is max(−∞, v34[h]). -/
theorem rowmax_at (v34 : FVec Ideal S64 .f32) (h k : Fin 64) :
    broadcastTo S64x64 (shapeCast S64x1 (maximumf (k1_pay5 (F := Ideal)) v34) shapeCasts_S64_S64x1) broadcasts_S64x1_S64x64 (ix2 h k)
      = max (Ideal.ofBits .f32 0xFF800000#32) (v34 (ix1 h)) := by
  refine (bcast_a1_ab _ broadcasts_S64x1_S64x64 h k).trans ?_
  refine (cast_a_a1 _ shapeCasts_S64_S64x1 h 0).trans ?_
  rfl

/-- The reference's clamped row maximum, spread over the row, at (b, n, h, k). -/
theorem ref_rowmax_at (b : Fin 4) (n : Fin 16) (h k : Fin 64) :
    val_main_v75 (F := Ideal) x0 x1 x2 x3 (ix4 b n h k)
      = max (Ideal.ofBits .f32 0xFF800000#32) (val_main_v71 (F := Ideal) x0 x1 x2 x3 (ix3 b n h)) := by
  rw [val_main_v75_apply, val_main_v74_apply, val_main_v73_apply, val_main_v72_apply, val_main_cst_19_apply]
  have e : idx_main_v74 (idx_main_v75 (ix4 b n h k)) = ix3 b n h :=
    funext fun a => Fin.ext (by match a with | ⟨0, _⟩ => rfl | ⟨1, _⟩ => rfl | ⟨2, _⟩ => rfl)
  rw [e]
  rfl

/-- The exponentials: exp(score − clamped row maximum) is the reference's, entry by entry. -/
theorem expo_at (b : Fin 4) (n : Fin 16) (v33 : FVec Ideal S64x64 .f32) (v34 : FVec Ideal S64 .f32)
    (h33 : ∀ j, v33 j = val_main_v70 (F := Ideal) x0 x1 x2 x3 (ix4 b n (j 0) (j 1)))
    (h34 : ∀ j, v34 j = val_main_v71 (F := Ideal) x0 x1 x2 x3 (ix3 b n (j 0))) (h k : Fin 64) :
    exp (subf v33 (broadcastTo S64x64 (shapeCast S64x1 (maximumf (k1_pay5 (F := Ideal)) v34) shapeCasts_S64_S64x1) broadcasts_S64x1_S64x64)) (ix2 h k)
      = val_main_v77 (F := Ideal) x0 x1 x2 x3 (ix4 b n h k) := by
  rw [val_main_v77_apply, val_main_v76_apply, ref_rowmax_at]
  show Ideal.exp (v33 (ix2 h k) - broadcastTo S64x64 (shapeCast S64x1 (maximumf (k1_pay5 (F := Ideal)) v34) shapeCasts_S64_S64x1) broadcasts_S64x1_S64x64 (ix2 h k)) = _
  rw [rowmax_at, h33, h34]
  rfl

/-- The reference's row sums of the exponentials, spread over the row, at (b, n, h, k): the sum over the row. -/
theorem ref_rowsum_at (b : Fin 4) (n : Fin 16) (h k : Fin 64) :
    val_main_v80 (F := Ideal) x0 x1 x2 x3 (ix4 b n h k)
      = ∑ c : Fin 64, val_main_v77 (F := Ideal) x0 x1 x2 x3 (ix4 b n h c) := by
  rw [val_main_v80_apply, val_main_v79_apply, val_main_v78_apply, val_main_cst_20_apply]
  refine (congrArg (· + _) Ideal.ofBits_zero_f32).trans ?_
  rw [zero_add]
  refine Finset.sum_congr rfl fun c _ => ?_
  exact congrArg (val_main_v77 (F := Ideal) x0 x1 x2 x3)
    (funext fun a => Fin.ext (by match a with | ⟨0, _⟩ => rfl | ⟨1, _⟩ => rfl | ⟨2, _⟩ => rfl | ⟨3, _⟩ => rfl))

/-- The softmax weights: exponentials over their row sums are the reference's, entry by entry. -/
theorem softmax_at (b : Fin 4) (n : Fin 16) (E : FVec Ideal S64x64 .f32)
    (hE : ∀ h k : Fin 64, E (ix2 h k) = val_main_v77 (F := Ideal) x0 x1 x2 x3 (ix4 b n h k))
    (hφ : FKind.Formats FTy.f32) (hacc : (0x00000000#32 : BitVec 32) = 0x00000000#32) (h k : Fin 64) :
    divf E (broadcastTo S64x64 (shapeCast S64x1 (multiReduction (F := Ideal) .add [1] S64 E 0x00000000#32 reduces_S64x64_S64 hφ hacc)
        shapeCasts_S64_S64x1) broadcasts_S64x1_S64x64) (ix2 h k)
      = val_main_v81 (F := Ideal) x0 x1 x2 x3 (ix4 b n h k) := by
  rw [val_main_v81_apply, ref_rowsum_at, Ideal.hostDivf_def]
  refine (divf_apply _ _ _).trans ?_
  rw [hE]
  refine congrArg (Ideal.div _) ?_
  refine (bcast_a1_ab _ broadcasts_S64x1_S64x64 h k).trans ?_
  refine (cast_a_a1 _ shapeCasts_S64_S64x1 h 0).trans ?_
  refine (rowsum_apply E hφ hacc h).trans ?_
  exact Finset.sum_congr rfl fun c _ => hE h c

end AttnOut

open AttnOut

/-- The value slab as the body widens it: the two unit axes dropped, at (s, h) the array at (b, n, s, h). -/
theorem vslab (b : Fin 4) (n : Fin 16) (A : S4x16x4096x64.Idx → EReal) (j : S4096x64.Idx) :
    k1_pay2 (F := Ideal) (slab A b n) j = A (ix4 b n (j 0) (j 1)) := by
  obtain ⟨s, h, rfl⟩ : ∃ (s : Fin 4096) (h : Fin 64), j = ix2 s h := ⟨j 0, j 1, eq_ix2 j⟩
  unfold k1_pay2
  refine (extf_apply (φ := .bf16) (ψ := .f32) _ bitsLt_bf16_f32 _).trans ?_
  refine (cast_11ab_ab _ shapeCasts_S1x1x4096x64_S4096x64 s h).trans ?_
  rfl

/-- The body's output block: at (0, 0, s, h) the sum over k of the value slab at (s, k) times the softmax weight at
    (h, k), which is the reference's attention output at (b, n, s, h). -/
theorem out_block (b : Fin 4) (n : Fin 16) (v8 : S4096x64.Idx → EReal) (v33 : S64x64.Idx → EReal) (v34 : S64.Idx → EReal)
    (h8 : ∀ j, v8 j = Cert.ReferenceIdeal.Read.val_main_v47 (F := Ideal) x0 x1 x4 (ix4 b n (j 0) (j 1)))
    (h33 : ∀ j, v33 j = Cert.ReferenceIdeal.Read.val_main_v70 (F := Ideal) x0 x1 x2 x3 (ix4 b n (j 0) (j 1)))
    (h34 : ∀ j, v34 j = Cert.ReferenceIdeal.Read.val_main_v71 (F := Ideal) x0 x1 x2 x3 (ix3 b n (j 0))) :
    k1_pay1 (F := Ideal) v8 v33 v34 k1_pay5 = slab (Cert.ReferenceIdeal.Read.val_main_v82 (F := Ideal) x0 x1 x2 x3 x4) b n := by
  funext y
  obtain ⟨u, w, s, h, rfl⟩ : ∃ (u w : Fin 1) (s : Fin 4096) (h : Fin 64), y = ix4 u w s h := ⟨y 0, y 1, y 2, y 3, eq_ix4 y⟩
  rw [slab_apply]
  unfold k1_pay1
  refine (cast_ab_11ab _ shapeCasts_S4096x64_S1x1x4096x64 u w s h).trans ?_
  refine (truncf_apply (φ := .f32) (ψ := .bf16) _ bitsLt_bf16_f32 _).trans ?_
  refine (av_apply _ _ s h).trans ?_
  refine ((Cert.ReferenceIdeal.Read.val_main_v82_apply x0 x1 x2 x3 x4 _).trans ?_).symm
  refine Finset.sum_congr rfl fun k _ => ?_
  have el : Cert.ReferenceIdeal.Read.lidx_main_v82 (ix4 b n ((ix4 u w s h : S1x1x4096x64.Idx) 2) ((ix4 u w s h : S1x1x4096x64.Idx) 3)) k = ix4 b n s k :=
    funext fun a => Fin.ext (by match a with | ⟨0, _⟩ => rfl | ⟨1, _⟩ => rfl | ⟨2, _⟩ => rfl | ⟨3, _⟩ => rfl)
  have er : Cert.ReferenceIdeal.Read.ridx_main_v82 (ix4 b n ((ix4 u w s h : S1x1x4096x64.Idx) 2) ((ix4 u w s h : S1x1x4096x64.Idx) 3)) k = ix4 b n h k :=
    funext fun a => Fin.ext (by match a with | ⟨0, _⟩ => rfl | ⟨1, _⟩ => rfl | ⟨2, _⟩ => rfl | ⟨3, _⟩ => rfl)
  rw [el, er]
  refine congrArg₂ (· * ·) ?_ ?_
  · exact (h8 (ix2 s k)).symm
  · refine ((truncf_apply (φ := .f32) (ψ := .bf16) _ bitsLt_bf16_f32 _).trans ?_).symm
    exact softmax_at x0 x1 x2 x3 b n _ (expo_at x0 x1 x2 x3 b n v33 v34 h33 h34) _ _ h k

end Cert.Bridge

end
-- ==== Proof.HostGlue.lean ====
/-
  The kernel's host code between its three launches, read as whole arrays.

  Before the first launch the four weight matrices are normalised row by row and scaled by gain / 32 with exactly the
  reference's operations (the narrowing to bf16 is the identity on exact values), and the input is flattened to
  [16384, 1024]. Between the launches the projected rows are split into heads and transposed, the attention output is
  transposed back and flattened, and after the last launch the result is unflattened: reshapes compose, so each array
  the kernel's host code hands to a launch is the reference's array of the same name, flattened where the kernel
  works on rows.
-/
import proofs.«102114_j26654567039403_1_alg».proof.Proof.Gen.KernelIdeal.Frame
import proofs.«102114_j26654567039403_1_alg».proof.Proof.Gen.ReferenceIdeal.Read
import proofs.«102114_j26654567039403_1_alg».proof.Proof.Reg0Array
import proofs.«102114_j26654567039403_1_alg».proof.Proof.Reg1Array
import proofs.«102114_j26654567039403_1_alg».proof.Proof.Reg2Array
import proofs.«102114_j26654567039403_1_alg».proof.Proof.ProjMath
import proofs.«102114_j26654567039403_1_alg».proof.Proof.AttnScores
import proofs.«102114_j26654567039403_1_alg».proof.Proof.AttnOut
import Idealize.ShloMosaic.Lib.StableHlo.Run
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The six argument arrays of the kernel program on core `c`, as plain functions. -/
abbrev argX (c : Dev nD) : S4x4096x1024.Idx → EReal := m ((c : Thread nD τ).loc main_arg0)
abbrev argG (c : Dev nD) : S_.Idx → EReal := m ((c : Thread nD τ).loc main_arg1)
abbrev argWq (c : Dev nD) : S1024x1024.Idx → EReal := m ((c : Thread nD τ).loc main_arg2)
abbrev argWk (c : Dev nD) : S1024x1024.Idx → EReal := m ((c : Thread nD τ).loc main_arg3)
abbrev argWv (c : Dev nD) : S1024x1024.Idx → EReal := m ((c : Thread nD τ).loc main_arg4)
abbrev argWo (c : Dev nD) : S1024x1024.Idx → EReal := m ((c : Thread nD τ).loc main_arg5)

/-- Reshapes compose: both keep the elements in row-major order. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-! ## Before the first launch -/

set_option maxHeartbeats 20000000 in
theorem V1_v56 (c : Dev nD) : V1 m ρ c main_v56 = flat (argX m c) := by
  show StableHlo.after hostOps0 (W0 m ρ c) (Proc.devRef .tc main_v56) = _
  after_results_simp
  rfl

set_option maxHeartbeats 20000000 in
theorem V1_v52 (c : Dev nD) : V1 m ρ c main_v52 = Cert.ReferenceIdeal.Read.val_main_v12 (F := Ideal) (argG m c) (argWq m c) := by
  show StableHlo.after hostOps0 (W0 m ρ c) (Proc.devRef .tc main_v52) = _
  after_results_simp
  rfl

set_option maxHeartbeats 20000000 in
theorem V1_v53 (c : Dev nD) : V1 m ρ c main_v53 = Cert.ReferenceIdeal.Read.val_main_v28 (F := Ideal) (argG m c) (argWk m c) := by
  show StableHlo.after hostOps0 (W0 m ρ c) (Proc.devRef .tc main_v53) = _
  after_results_simp
  rfl

set_option maxHeartbeats 20000000 in
theorem V1_v54 (c : Dev nD) : V1 m ρ c main_v54 = Cert.ReferenceIdeal.Read.val_main_v44 (F := Ideal) (argG m c) (argWv m c) := by
  show StableHlo.after hostOps0 (W0 m ρ c) (Proc.devRef .tc main_v54) = _
  after_results_simp
  rfl

set_option maxHeartbeats 20000000 in
theorem V1_v55 (c : Dev nD) : V1 m ρ c main_v55 = Cert.ReferenceIdeal.Read.val_main_v97 (F := Ideal) (argG m c) (argWo m c) := by
  show StableHlo.after hostOps0 (W0 m ρ c) (Proc.devRef .tc main_v55) = _
  after_results_simp
  rfl

/-! ## The first launch: the three projections, as flattened arrays -/

theorem W2_v57_0 (c : Dev nD) : W2 m ρ c (Proc.devRef .tc main_v57_0) = flat (Cert.ReferenceIdeal.Read.val_main_v13 (F := Ideal) (argX m c) (argG m c) (argWq m c)) :=
  (W2_arr m ρ c 4).trans (region0_array4 (V1 m ρ) c _ _ _ (V1_v56 m ρ c) (V1_v52 m ρ c) (fun t => proj_block2 _ _ t))

theorem W2_v57_1 (c : Dev nD) : W2 m ρ c (Proc.devRef .tc main_v57_1) = flat (Cert.ReferenceIdeal.Read.val_main_v29 (F := Ideal) (argX m c) (argG m c) (argWk m c)) :=
  (W2_arr m ρ c 5).trans (region0_array5 (V1 m ρ) c _ _ _ (V1_v56 m ρ c) (V1_v53 m ρ c) (fun t => proj_block3 _ _ t))

theorem W2_v57_2 (c : Dev nD) : W2 m ρ c (Proc.devRef .tc main_v57_2) = flat (Cert.ReferenceIdeal.Read.val_main_v45 (F := Ideal) (argX m c) (argG m c) (argWv m c)) :=
  (W2_arr m ρ c 6).trans (region0_array6 (V1 m ρ) c _ _ _ (V1_v56 m ρ c) (V1_v54 m ρ c) (fun t => proj_block4 _ _ t))

/-- An input window's array leaves the launch as it entered it. -/
theorem W2_v56 (c : Dev nD) : W2 m ρ c (Proc.devRef .tc main_v56) = flat (argX m c) :=
  (W2_arr m ρ c 0).trans (((dat0 (V1 m ρ) c).arrAt_in 0 rfl cfg0.N).trans ((A_eq0 (V1 m ρ) c 0).trans (V1_v56 m ρ c)))

theorem W2_v55 (c : Dev nD) : W2 m ρ c (Proc.devRef .tc main_v55) = Cert.ReferenceIdeal.Read.val_main_v97 (F := Ideal) (argG m c) (argWo m c) :=
  (W2_of_ne m ρ c main_v55 (by decide)).trans (V1_v55 m ρ c)

/-! ## Between the first and the second launch: heads split off and transposed -/

theorem V3_v59 (c : Dev nD) : V3 m ρ c main_v59 = Cert.ReferenceIdeal.Read.val_main_v15 (F := Ideal) (argX m c) (argG m c) (argWq m c) := by
  show StableHlo.after hostOps1 (W2 m ρ c) (Proc.devRef .tc main_v59) = _
  after_results
  rw [W2_v57_0]
  show transpose S4x16x4096x64 [0, 2, 1, 3] (shapeCast S4x4096x16x64 (flat (Cert.ReferenceIdeal.Read.val_main_v13 (F := Ideal) (argX m c) (argG m c) (argWq m c))) shapeCasts_S16384x1024_S4x4096x16x64) transposes_S4x4096x16x64_S4x16x4096x64_0_2_1_3 = _
  unfold flat
  rw [shapeCast_comp _ _ _ Cert.ReferenceIdeal.Gen.shapeCasts_S4x4096x1024_S4x4096x16x64]
  rfl

theorem V3_v61 (c : Dev nD) : V3 m ρ c main_v61 = Cert.ReferenceIdeal.Read.val_main_v31 (F := Ideal) (argX m c) (argG m c) (argWk m c) := by
  show StableHlo.after hostOps1 (W2 m ρ c) (Proc.devRef .tc main_v61) = _
  after_results
  rw [W2_v57_1]
  show transpose S4x16x4096x64 [0, 2, 1, 3] (shapeCast S4x4096x16x64 (flat (Cert.ReferenceIdeal.Read.val_main_v29 (F := Ideal) (argX m c) (argG m c) (argWk m c))) shapeCasts_S16384x1024_S4x4096x16x64) transposes_S4x4096x16x64_S4x16x4096x64_0_2_1_3 = _
  unfold flat
  rw [shapeCast_comp _ _ _ Cert.ReferenceIdeal.Gen.shapeCasts_S4x4096x1024_S4x4096x16x64]
  rfl

theorem V3_v63 (c : Dev nD) : V3 m ρ c main_v63 = Cert.ReferenceIdeal.Read.val_main_v47 (F := Ideal) (argX m c) (argG m c) (argWv m c) := by
  show StableHlo.after hostOps1 (W2 m ρ c) (Proc.devRef .tc main_v63) = _
  after_results
  rw [W2_v57_2]
  show transpose S4x16x4096x64 [0, 2, 1, 3] (shapeCast S4x4096x16x64 (flat (Cert.ReferenceIdeal.Read.val_main_v45 (F := Ideal) (argX m c) (argG m c) (argWv m c))) shapeCasts_S16384x1024_S4x4096x16x64) transposes_S4x4096x16x64_S4x16x4096x64_0_2_1_3 = _
  unfold flat
  rw [shapeCast_comp _ _ _ Cert.ReferenceIdeal.Gen.shapeCasts_S4x4096x1024_S4x4096x16x64]
  rfl

theorem W3_v55 (c : Dev nD) : W3 m ρ c (Proc.devRef .tc main_v55) = Cert.ReferenceIdeal.Read.val_main_v97 (F := Ideal) (argG m c) (argWo m c) :=
  (StableHlo.after_of_forall_not_mem (b := Proc.devRef .tc main_v55) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_v55 m ρ c)

theorem W3_v56 (c : Dev nD) : W3 m ρ c (Proc.devRef .tc main_v56) = flat (argX m c) :=
  (StableHlo.after_of_forall_not_mem (b := Proc.devRef .tc main_v56) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_v56 m ρ c)

/-! ## The second launch: attention, one (batch, head) slab at a time -/

theorem attn_block (x0 : S4x4096x1024.Idx → EReal) (x1 : S_.Idx → EReal) (x2 x3 x4 : S1024x1024.Idx → EReal) (b : Fin 4) (n : Fin 16) :
    k1_pay1 (F := Ideal) (k1_pay2 (slab (Cert.ReferenceIdeal.Read.val_main_v47 (F := Ideal) x0 x1 x4) b n))
      (k1_pay3 (slab (Cert.ReferenceIdeal.Read.val_main_v15 (F := Ideal) x0 x1 x2) b n) (slab (Cert.ReferenceIdeal.Read.val_main_v31 (F := Ideal) x0 x1 x3) b n))
      (k1_pay4 (slab (Cert.ReferenceIdeal.Read.val_main_v15 (F := Ideal) x0 x1 x2) b n) (slab (Cert.ReferenceIdeal.Read.val_main_v31 (F := Ideal) x0 x1 x3) b n)) k1_pay5
      = slab (Cert.ReferenceIdeal.Read.val_main_v82 (F := Ideal) x0 x1 x2 x3 x4) b n :=
  out_block x0 x1 x2 x3 x4 b n _ _ _ (fun j => vslab b n _ j) (fun j => scores_block x0 x1 x2 x3 b n j) (fun j => rowmax_block x0 x1 x2 x3 b n j)

theorem W4_v64 (c : Dev nD) : W4 m ρ c (Proc.devRef .tc main_v64) = Cert.ReferenceIdeal.Read.val_main_v82 (F := Ideal) (argX m c) (argG m c) (argWq m c) (argWk m c) (argWv m c) :=
  (W4_arr m ρ c 3).trans (region1_array3 (V3 m ρ) c _ _ _ _ (V3_v59 m ρ c) (V3_v61 m ρ c) (V3_v63 m ρ c)
    (fun b n => attn_block (argX m c) (argG m c) (argWq m c) (argWk m c) (argWv m c) b n))

theorem W4_v55 (c : Dev nD) : W4 m ρ c (Proc.devRef .tc main_v55) = Cert.ReferenceIdeal.Read.val_main_v97 (F := Ideal) (argG m c) (argWo m c) :=
  (W4_of_ne m ρ c main_v55 (by decide)).trans (W3_v55 m ρ c)

theorem W4_v56 (c : Dev nD) : W4 m ρ c (Proc.devRef .tc main_v56) = flat (argX m c) :=
  (W4_of_ne m ρ c main_v56 (by decide)).trans (W3_v56 m ρ c)

/-! ## Between the second and the third launch: heads merged back, rows flattened -/

theorem V5_v66 (c : Dev nD) : V5 m ρ c main_v66 = flat (Cert.ReferenceIdeal.Read.val_main_v84 (F := Ideal) (argX m c) (argG m c) (argWq m c) (argWk m c) (argWv m c)) := by
  show StableHlo.after hostOps2 (W4 m ρ c) (Proc.devRef .tc main_v66) = _
  after_results
  rw [W4_v64]
  show shapeCast S16384x1024 (transpose S4x4096x16x64 [0, 2, 1, 3] (Cert.ReferenceIdeal.Read.val_main_v82 (F := Ideal) (argX m c) (argG m c) (argWq m c) (argWk m c) (argWv m c)) transposes_S4x16x4096x64_S4x4096x16x64_0_2_1_3) shapeCasts_S4x4096x16x64_S16384x1024 = _
  unfold flat
  show _ = shapeCast S16384x1024 (shapeCast Cert.ReferenceIdeal.S4x4096x1024 (Cert.ReferenceIdeal.Read.val_main_v83 (F := Ideal) (argX m c) (argG m c) (argWq m c) (argWk m c) (argWv m c)) Cert.ReferenceIdeal.Gen.shapeCasts_S4x4096x16x64_S4x4096x1024) shapeCasts_S4x4096x1024_S16384x1024
  rw [shapeCast_comp _ _ _ shapeCasts_S4x4096x16x64_S16384x1024]
  rfl

theorem V5_v55 (c : Dev nD) : V5 m ρ c main_v55 = Cert.ReferenceIdeal.Read.val_main_v97 (F := Ideal) (argG m c) (argWo m c) :=
  (StableHlo.after_of_forall_not_mem (b := Proc.devRef .tc main_v55) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v55 m ρ c)

theorem V5_v56 (c : Dev nD) : V5 m ρ c main_v56 = flat (argX m c) :=
  (StableHlo.after_of_forall_not_mem (b := Proc.devRef .tc main_v56) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v56 m ρ c)

/-! ## The third launch and the closing reshape -/

theorem W6_v67 (c : Dev nD) : W6 m ρ c (Proc.devRef .tc main_v67) = flat (Cert.ReferenceIdeal.Read.val_main_v105 (F := Ideal) (argX m c) (argG m c) (argWq m c) (argWk m c) (argWv m c) (argWo m c)) :=
  (W6_arr m ρ c 3).trans (region2_array3 (V5 m ρ) c _ _ _ _ (V5_v66 m ρ c) (V5_v55 m ρ c) (V5_v56 m ρ c)
    (fun t => combine_block _ _ _ t))

/-- The kernel program's result array after the whole run is the reference's last stage of the same arguments. -/
theorem W7_v68 (c : Dev nD) : W7 m ρ c (Proc.devRef .tc main_v68) = Cert.ReferenceIdeal.Read.val_main_v105 (F := Ideal) (argX m c) (argG m c) (argWq m c) (argWk m c) (argWv m c) (argWo m c) := by
  show StableHlo.after hostOps3 (W6 m ρ c) (Proc.devRef .tc main_v68) = _
  after_results
  rw [W6_v67]
  show shapeCast S4x4096x1024 (flat (Cert.ReferenceIdeal.Read.val_main_v105 (F := Ideal) (argX m c) (argG m c) (argWq m c) (argWk m c) (argWv m c) (argWo m c))) shapeCasts_S16384x1024_S4x4096x1024 = _
  unfold flat
  exact shapeCast_shapeCast _ _ _

end Cert.Bridge

end
-- ==== Proof.lean ====
/-
  Cosine-normalised attention with magnitude-preserving projections: the Pallas program (three launches: the q/k/v
  projections over blocks of 512 rows, the per-(batch, head) attention core, the output projection fused with the
  residual combination) against the plain jnp reference, over the extended reals.

  At the ideal instance a change of float format is the identity and a `tpu.matmul` into a zero accumulator is the same
  sum as the host's `dot_general`, so launch by launch the kernel computes the reference's arrays: the weight
  normalisation on the host is the reference's own text; each projection block is 512 rows of the reference's
  projection; each attention slab is the reference's normalise / scores / softmax / weighted sum read at one batch and
  head; and the last launch multiplies `(x/2 + proj/2)` by the named reciprocal 16777216/11863283 of the constant
  11863283/16777216 the reference divides by. Reshapes compose, so the arrays handed from launch to launch are the
  reference's, flattened where the kernel works on rows.
-/
import proofs.«102114_j26654567039403_1_alg».proof.Defs
import proofs.«102114_j26654567039403_1_alg».proof.Proof.Gen.Kernel
import proofs.«102114_j26654567039403_1_alg».proof.Proof.Gen.Kernel.Skeleton
import proofs.«102114_j26654567039403_1_alg».proof.Proof.Gen.Kernel.Launch
import proofs.«102114_j26654567039403_1_alg».proof.Proof.Gen.Kernel.Points
import proofs.«102114_j26654567039403_1_alg».proof.Proof.Gen.Kernel.Frame
import proofs.«102114_j26654567039403_1_alg».proof.Proof.Gen.KernelIdeal
import proofs.«102114_j26654567039403_1_alg».proof.Proof.Gen.KernelIdeal.Skeleton
import proofs.«102114_j26654567039403_1_alg».proof.Proof.Gen.KernelIdeal.Launch
import proofs.«102114_j26654567039403_1_alg».proof.Proof.Gen.KernelIdeal.Points
import proofs.«102114_j26654567039403_1_alg».proof.Proof.Gen.KernelIdeal.Frame
import proofs.«102114_j26654567039403_1_alg».proof.Proof.Gen.ReferenceIdeal
import proofs.«102114_j26654567039403_1_alg».proof.Proof.Gen.Pre_finite_inputs
import proofs.«102114_j26654567039403_1_alg».proof.Proof.Gen.ReferenceIdeal.Run
import proofs.«102114_j26654567039403_1_alg».proof.Proof.Gen.ReferenceIdeal.Read
import proofs.«102114_j26654567039403_1_alg».proof.Proof.KRun
import proofs.«102114_j26654567039403_1_alg».proof.Proof.HostGlue
import Idealize.ShloMosaic.Adequacy
import Idealize.ShloMosaic.Init

noncomputable section

namespace Cert.Proof

open Idealize.ShloMosaic Idealize.ShloMosaic.TcCoe Idealize.SL.Sem

/-- The three programs run, fault-free, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealisation: the closing scale's word denotes 16777216/11863283 at the ideal instance, the
    reciprocal of the rational the reference's divisor word denotes. -/
theorem preserves : Cert.preserves_Kernel_KernelIdeal :=
  IdealRules.named_const.statement Cert.KernelIdeal.κ "recip_combine_norm" .f32 0x3FB504F3#32 ((16777216 / 11863283 : ℝ) : EReal) rfl

/-- Both idealised programs end with the same result array: the reference's last stage of the shared arguments. -/
theorem algebraic : Cert.algebraic_KernelIdeal_ReferenceIdeal := by
  intro m ρ m' ρ' _ hagree
  refine ⟨fun c => Cert.ReferenceIdeal.Read.val_main_v105 (F := Ideal)
      (Cert.Bridge.argX m c) (Cert.Bridge.argG m c) (Cert.Bridge.argWq m c) (Cert.Bridge.argWk m c) (Cert.Bridge.argWv m c) (Cert.Bridge.argWo m c), ?_, ?_⟩
  · exact (θ_run Cert.KernelIdeal.defs _ _).mono (fun r h c => ⟨(h c).1.trans (Cert.Bridge.W7_v68 m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v105_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
